-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x6400000 : Shape := ⟨2, ![2, 6400000]⟩
abbrev S6400000x16 : Shape := ⟨2, ![6400000, 16]⟩
abbrev S100000 : Shape := ⟨1, ![100000]⟩
abbrev S16x16 : Shape := ⟨2, ![16, 16]⟩
abbrev S16 : Shape := ⟨1, ![16]⟩
abbrev S16x6 : Shape := ⟨2, ![16, 6]⟩
abbrev S6 : Shape := ⟨1, ![6]⟩
abbrev S6x6 : Shape := ⟨2, ![6, 6]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S6400000x16 : S_.BroadcastsInDim S6400000x16 (![] : Fin 0 → Fin S6400000x16.rank)
  reducesTo_S6400000x16_S_d0_1 : S6400000x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x6 : S_.BroadcastsInDim S16x6 (![] : Fin 0 → Fin S16x6.rank)
  reducesTo_S16x6_S_d0_1 : S16x6.ReducesTo [0, 1] S_
  bcast_S_S6 : S_.BroadcastsInDim S6 (![] : Fin 0 → Fin S6.rank)
  reducesTo_S6_S_d0 : S6.ReducesTo [0] S_
  bcast_S_S6x6 : S_.BroadcastsInDim S6x6 (![] : Fin 0 → Fin S6x6.rank)
  reducesTo_S6x6_S_d0_1 : S6x6.ReducesTo [0, 1] S_

variable [Facts]

def fn_part2 {F : FTy → Type} [FloatOps F] (main_arg9 : FVec F S6 .f32) (main_arg10 : FVec F S6x6 .f32) (main_arg11 : FVec F S6 .f32) (main_v33 : IVec S_ 1) : IVec S_ 1 :=
  let main_v34 : FVec F S6 .f32 := Host.absf main_arg9
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  let main_v39 : FVec F S6x6 .f32 := Host.absf main_arg10
  let main_cst_14 : FVec F S_ .f32 := constant S_ .f32 0x7F800000#32
  let main_v40 : FVec F S6x6 .f32 := broadcastInDim S6x6 ![] bcast_S_S6x6 main_cst_14
  let main_v41 : IVec S6x6 1 := cmpf .olt main_v39 main_v40
  let main_c_15 : IVec S_ 1 := constantI S_ 1 1#1
  let main_v42 : IVec S_ 1 := (fun x v => Host.reduce IntOp.andi x v reducesTo_S6x6_S_d0_1 h_S_) main_v41 main_c_15
  let main_v43 : IVec S_ 1 := andi main_v38 main_v42
  let main_v44 : FVec F S6 .f32 := Host.absf main_arg11
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  main_v48

def fn_part1 {F : FTy → Type} [FloatOps F] (main_arg6 : FVec F S16x16 .f32) (main_arg7 : FVec F S16 .f32) (main_arg8 : FVec F S16x6 .f32) (main_arg9 : FVec F S6 .f32) (main_arg10 : FVec F S6x6 .f32) (main_arg11 : FVec F S6 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x6 .f32 := Host.absf main_arg8
  let main_cst_10 : FVec F S_ .f32 := constant S_ .f32 0x7F800000#32
  let main_v30 : FVec F S16x6 .f32 := broadcastInDim S16x6 ![] bcast_S_S16x6 main_cst_10
  let main_v31 : IVec S16x6 1 := cmpf .olt main_v29 main_v30
  let main_c_11 : IVec S_ 1 := constantI S_ 1 1#1
  let main_v32 : IVec S_ 1 := (fun x v => Host.reduce IntOp.andi x v reducesTo_S16x6_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x16 .f32) (main_arg1 : IVec S2x6400000 32) (main_arg2 : FVec F S6400000x16 .f32) (main_arg3 : IVec S100000 32) (main_arg4 : FVec F S16x16 .f32) (main_arg5 : FVec F S16 .f32) (main_arg6 : FVec F S16x16 .f32) (main_arg7 : FVec F S16 .f32) (main_arg8 : FVec F S16x6 .f32) (main_arg9 : FVec F S6 .f32) (main_arg10 : FVec F S6x6 .f32) (main_arg11 : FVec F S6 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S6400000x16 .f32 := Host.absf main_arg2
  let main_cst_0 : FVec F S_ .f32 := constant S_ .f32 0x7F800000#32
  let main_v5 : FVec F S6400000x16 .f32 := broadcastInDim S6400000x16 ![] bcast_S_S6400000x16 main_cst_0
  let main_v6 : IVec S6400000x16 1 := cmpf .olt main_v4 main_v5
  let main_c_1 : IVec S_ 1 := constantI S_ 1 1#1
  let main_v7 : IVec S_ 1 := (fun x v => Host.reduce IntOp.andi x v reducesTo_S6400000x16_S_d0_1 h_S_) main_v6 main_c_1
  let main_v8 : IVec S_ 1 := andi main_v3 main_v7
  let main_v9 : FVec F S16x16 .f32 := Host.absf main_arg4
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_v13 main_v16
-- ==== Kernel.lean ====
abbrev S100000x16 : Shape := ⟨2, ![100000, 16]⟩
abbrev S2x6400000 : Shape := ⟨2, ![2, 6400000]⟩
abbrev S6400000x16 : Shape := ⟨2, ![6400000, 16]⟩
abbrev S100000 : Shape := ⟨1, ![100000]⟩
abbrev S16x16 : Shape := ⟨2, ![16, 16]⟩
abbrev S16 : Shape := ⟨1, ![16]⟩
abbrev S16x6 : Shape := ⟨2, ![16, 6]⟩
abbrev S6 : Shape := ⟨1, ![6]⟩
abbrev S6x6 : Shape := ⟨2, ![6, 6]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S10000x16 : Shape := ⟨2, ![10000, 16]⟩
abbrev S4000x16 : Shape := ⟨2, ![4000, 16]⟩
abbrev S1x16 : Shape := ⟨2, ![1, 16]⟩
abbrev S100000x6 : Shape := ⟨2, ![100000, 6]⟩
abbrev S4000x6 : Shape := ⟨2, ![4000, 6]⟩
abbrev S1x6 : Shape := ⟨2, ![1, 6]⟩
abbrev S1000x6 : Shape := ⟨2, ![1000, 6]⟩
abbrev S100000x1 : Shape := ⟨2, ![100000, 1]⟩
abbrev S1000 : Shape := ⟨1, ![1000]⟩
abbrev S1000x1 : Shape := ⟨2, ![1000, 1]⟩

abbrev nBuf : Space → Nat
  | .hbm => 77
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S2x6400000, .i32⟩
  | .hbm, ⟨2, _⟩ => ⟨S6400000x16, .f32⟩
  | .hbm, ⟨3, _⟩ => ⟨S100000, .i32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x6, .f32⟩
  | .hbm, ⟨9, _⟩ => ⟨S6, .f32⟩
  | .hbm, ⟨10, _⟩ => ⟨S6x6, .f32⟩
  | .hbm, ⟨11, _⟩ => ⟨S6, .f32⟩
  | .hbm, ⟨12, _⟩ => ⟨S1x6400000, .i32⟩
  | .hbm, ⟨13, _⟩ => ⟨S6400000, .i32⟩
  | .hbm, ⟨14, _⟩ => ⟨S1x6400000, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x16, .f32⟩
  | .hbm, ⟨25, _⟩ => ⟨S6400000x16, .f32⟩
  | .hbm, ⟨26, _⟩ => ⟨S_, .f32⟩
  | .hbm, ⟨27, _⟩ => ⟨S100000x16, .f32⟩
  | .hbm, ⟨28, _⟩ => ⟨S6400000x1, .i32⟩
  | .hbm, ⟨29, _⟩ => ⟨S100000x16, .f32⟩
  | .hbm, ⟨30, _⟩ => ⟨S100000x16, .f32⟩
  | .hbm, ⟨31, _⟩ => ⟨S_, .i32⟩
  | .hbm, ⟨32, _⟩ => ⟨S6400000, .i32⟩
  | .hbm, ⟨33, _⟩ => ⟨S6400000, .i1⟩
  | .hbm, ⟨34, _⟩ => ⟨S_, .i32⟩
  | .hbm, ⟨35, _⟩ => ⟨S6400000, .i32⟩
  | .hbm, ⟨36, _⟩ => ⟨S6400000, .i32⟩
  | .hbm, ⟨37, _⟩ => ⟨S6400000, .i32⟩
  | .hbm, ⟨38, _⟩ => ⟨S6400000x1, .i32⟩
  | .hbm, ⟨39, _⟩ => ⟨S6400000x16, .f32⟩
  | .hbm, ⟨40, _⟩ => ⟨S6400000x16, .f32⟩
  | .hbm, ⟨41, _⟩ => ⟨S_, .f32⟩
  | .hbm, ⟨42, _⟩ => ⟨S100000x16, .f32⟩
  | .hbm, ⟨43, _⟩ => ⟨S6400000x1, .i32⟩
  | .hbm, ⟨44, _⟩ => ⟨S100000x16, .f32⟩
  | .hbm, ⟨45, _⟩ => ⟨S100000x6, .f32⟩
  | .hbm, ⟨46, _⟩ => ⟨S_, .f32⟩
  | .hbm, ⟨47, _⟩ => ⟨S1000x6, .f32⟩
  | .hbm, ⟨48, _⟩ => ⟨S100000x1, .i32⟩
  | .hbm, ⟨49, _⟩ => ⟨S1000x6, .f32⟩
  | .hbm, ⟨50, _⟩ => ⟨S_, .f32⟩
  | .hbm, ⟨51, _⟩ => ⟨S100000, .f32⟩
  | .hbm, ⟨52, _⟩ => ⟨S_, .f32⟩
  | .hbm, ⟨53, _⟩ => ⟨S1000, .f32⟩
  | .hbm, ⟨54, _⟩ => ⟨S100000x1, .i32⟩
  | .hbm, ⟨55, _⟩ => ⟨S1000, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S1000x1, .f32⟩
  | .hbm, ⟨60, _⟩ => ⟨S1000x6, .f32⟩
  | .hbm, ⟨61, _⟩ => ⟨S1000x6, .f32⟩
  | .hbm, ⟨62, _⟩ => ⟨S_, .f32⟩
  | .hbm, ⟨63, _⟩ => ⟨S1000, .f32⟩
  | .hbm, ⟨64, _⟩ => ⟨S_, .f32⟩
  | .hbm, ⟨65, _⟩ => ⟨S1000, .f32⟩
  | .hbm, ⟨66, _⟩ => ⟨S1000, .f32⟩
  | .hbm, ⟨67, _⟩ => ⟨S1000x1, .f32⟩
  | .hbm, ⟨68, _⟩ => ⟨S1000x6, .f32⟩
  | .hbm, ⟨69, _⟩ => ⟨S1000x6, .f32⟩
  | .hbm, ⟨70, _⟩ => ⟨S1000x6, .f32⟩
  | .hbm, ⟨71, _⟩ => ⟨S_, .f32⟩
  | .hbm, ⟨72, _⟩ => ⟨S1000, .f32⟩
  | .hbm, ⟨73, _⟩ => ⟨S1000x1, .f32⟩
  | .hbm, ⟨74, _⟩ => ⟨S1000x1, .f32⟩
  | .hbm, ⟨75, _⟩ => ⟨S1000x6, .f32⟩
  | .hbm, ⟨76, _⟩ => ⟨S1000x6, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x16, .f32⟩
  | .local _ .vmem, ⟨10, _⟩ => ⟨S16x16, .f32⟩
  | .local _ .vmem, ⟨11, _⟩ => ⟨S16, .f32⟩
  | .local _ .vmem, ⟨12, _⟩ => ⟨S16x16, .f32⟩
  | .local _ .vmem, ⟨13, _⟩ => ⟨S16, .f32⟩
  | .local _ .vmem, ⟨14, _⟩ => ⟨S4000x16, .f32⟩
  | .local _ .vmem, ⟨15, _⟩ => ⟨S4000x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S4000x16, .f32⟩
  | .local _ .vmem, ⟨23, _⟩ => ⟨S4000x16, .f32⟩
  | .local _ .vmem, ⟨24, _⟩ => ⟨S4000x16, .f32⟩
  | .local _ .vmem, ⟨25, _⟩ => ⟨S4000x16, .f32⟩
  | .local _ .vmem, ⟨26, _⟩ => ⟨S16x6, .f32⟩
  | .local _ .vmem, ⟨27, _⟩ => ⟨S6, .f32⟩
  | .local _ .vmem, ⟨28, _⟩ => ⟨S6x6, .f32⟩
  | .local _ .vmem, ⟨29, _⟩ => ⟨S6, .f32⟩
  | .local _ .vmem, ⟨30, _⟩ => ⟨S4000x6, .f32⟩
  | .local _ .vmem, ⟨31, _⟩ => ⟨S4000x6, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_call0_cst_0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_cst_1 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_v40 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![640], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![640], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x6 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S6 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S6x6 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S6 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x6 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bcast_S_S100000x16 : S_.BroadcastsInDim S100000x16 (![] : Fin 0 → Fin S100000x16.rank)
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x6_S16x6_0_0 : ∀ a, (![0, 0] : Fin 2 → Nat) a + S16x6.size a ≤ S16x6.size a
  h_S16x6 : 0 < S16x6.numel
  inb_S6_S6_0 : ∀ a, (![0] : Fin 1 → Nat) a + S6.size a ≤ S6.size a
  h_S6 : 0 < S6.numel
  shapeCasts_S6_S1x6 : S6.ShapeCasts S1x6
  broadcasts_S1x6_S4000x6 : S1x6.Broadcasts S4000x6
  inb_S6x6_S6x6_0_0 : ∀ a, (![0, 0] : Fin 2 → Nat) a + S6x6.size a ≤ S6x6.size a
  h_S6x6 : 0 < S6x6.numel
  inb_S4000x6_S4000x6_0_0 : ∀ a, (![0, 0] : Fin 2 → Nat) a + S4000x6.size a ≤ S4000x6.size a
  h_S4000x6 : 0 < S4000x6.numel
  bcast_S_S1000x6 : S_.BroadcastsInDim S1000x6 (![] : Fin 0 → Fin S1000x6.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x6_0_1 : S1000x1.BroadcastsInDim S1000x6 (![0, 1] : Fin 2 → Fin S1000x6.rank)
  reducesTo_S1000x6_S1000_d1 : S1000x6.ReducesTo [1] S1000
  h_S_ : 0 < S_.numel
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S4000x16_S16x16_S4000x16_1_0_0_1_n_n_wf : DotDims.WF S4000x16 S16x16 S4000x16 [1] [0] [0] [1] [] []
  dot_S4000x16_S16x6_S4000x6_1_0_0_1_n_n_wf : DotDims.WF S4000x16 S16x6 S4000x6 [1] [0] [0] [1] [] []
  dot_S4000x6_S6x6_S4000x6_1_0_0_1_n_n_wf : DotDims.WF S4000x6 S6x6 S4000x6 [1] [0] [0] [1] [] []
  scatter_S1000x6_S100000x1_S100000x6_1_0_0_1_wf : ScatterDims.WF S1000x6 S100000x1 S100000x6 [1] [0] [0] 1
  scatter_S1000_S100000x1_S100000_n_0_0_1_wf : ScatterDims.WF S1000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S6400000x16.size a
  hwx0_0 : ∀ i : grid0.Coords, EltTy.bits .f32 = 32 ∨ (Rect.block (s := S6400000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S6400000x16.size a
  hwx0_1 : ∀ i : grid0.Coords, EltTy.bits .f32 = 32 ∨ (Rect.block (s := S6400000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S6400000x16.size a
  hwx0_2 : ∀ i : grid0.Coords, EltTy.bits .f32 = 32 ∨ (Rect.block (s := S6400000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x16.size a ≤ S100000x16.size a
  hwx1_6 : ∀ i : grid1.Coords, EltTy.bits .f32 = 32 ∨ (Rect.block (s := S100000x16) S4000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S6400000x16.size a
  hwx2_0 : ∀ i : grid2.Coords, EltTy.bits .f32 = 32 ∨ (Rect.block (s := S6400000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S6400000x16.size a
  hwx2_1 : ∀ i : grid2.Coords, EltTy.bits .f32 = 32 ∨ (Rect.block (s := S6400000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S6400000x16.size a
  hwx2_2 : ∀ i : grid2.Coords, EltTy.bits .f32 = 32 ∨ (Rect.block (s := S6400000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x6.size a ≤ S16x6.size a
  hwx3_2 : ∀ i : grid3.Coords, EltTy.bits .f32 = 32 ∨ (Rect.block (s := S16x6) S16x6.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S6.size a ≤ S6.size a
  hwx3_3 : ∀ i : grid3.Coords, EltTy.bits .f32 = 32 ∨ (Rect.block (s := S6) S6.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S6x6.size a ≤ S6x6.size a
  hwx3_4 : ∀ i : grid3.Coords, EltTy.bits .f32 = 32 ∨ (Rect.block (s := S6x6) S6x6.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S6.size a ≤ S6.size a
  hwx3_5 : ∀ i : grid3.Coords, EltTy.bits .f32 = 32 ∨ (Rect.block (s := S6) S6.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x6.size a ≤ S100000x6.size a
  hwx3_6 : ∀ i : grid3.Coords, EltTy.bits .f32 = 32 ∨ (Rect.block (s := S100000x6) S4000x6.size (cc3_transform_6 i) (hinb3_6 i)).WholeWords (EltTy.packing .f32)

variable [Facts₀]

def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def dot_S4000x16_S16x6_S4000x6_1_0_0_1_n_n : DotDims S4000x16 S16x6 S4000x6 where
  lhsContracting := [1]
  rhsContracting := [0]
  lhsNonContracting := [0]
  rhsNonContracting := [1]
  lhsBatch := []
  rhsBatch := []
  wf := dot_S4000x16_S16x6_S4000x6_1_0_0_1_n_n_wf
def dot_S4000x6_S6x6_S4000x6_1_0_0_1_n_n : DotDims S4000x6 S6x6 S4000x6 where
  lhsContracting := [1]
  rhsContracting := [0]
  lhsNonContracting := [0]
  rhsNonContracting := [1]
  lhsBatch := []
  rhsBatch := []
  wf := dot_S4000x6_S6x6_S4000x6_1_0_0_1_n_n_wf
def scatter_S1000x6_S100000x1_S100000x6_1_0_0_1 : ScatterDims S1000x6 S100000x1 S100000x6 where
  updateWindowDims := [1]
  insertedWindowDims := [0]
  scatterDimsToOperandDims := [0]
  indexVectorDim := 1
  wf := scatter_S1000x6_S100000x1_S100000x6_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf

abbrev win0_0 : Pipeline.Window sig grid0 :=
  Pipeline.Window.ofSpec (Memref.whole main_v10) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S4000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x6.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S6.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S6x6.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S6.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v27) S4000x6.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x6400000 : Shape := ⟨2, ![2, 6400000]⟩
abbrev S6400000x16 : Shape := ⟨2, ![6400000, 16]⟩
abbrev S100000 : Shape := ⟨1, ![100000]⟩
abbrev S16x16 : Shape := ⟨2, ![16, 16]⟩
abbrev S16 : Shape := ⟨1, ![16]⟩
abbrev S16x6 : Shape := ⟨2, ![16, 6]⟩
abbrev S6 : Shape := ⟨1, ![6]⟩
abbrev S6x6 : Shape := ⟨2, ![6, 6]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S1x16 : Shape := ⟨2, ![1, 16]⟩
abbrev S100000x6 : Shape := ⟨2, ![100000, 6]⟩
abbrev S1x6 : Shape := ⟨2, ![1, 6]⟩
abbrev S1000x6 : Shape := ⟨2, ![1000, 6]⟩
abbrev S100000x1 : Shape := ⟨2, ![100000, 1]⟩
abbrev S1000 : Shape := ⟨1, ![1000]⟩
abbrev S1000x1 : Shape := ⟨2, ![1000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x6400000, .i32⟩
  | .hbm, ⟨2, _⟩ => ⟨S6400000x16, .f32⟩
  | .hbm, ⟨3, _⟩ => ⟨S100000, .i32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x6, .f32⟩
  | .hbm, ⟨9, _⟩ => ⟨S6, .f32⟩
  | .hbm, ⟨10, _⟩ => ⟨S6x6, .f32⟩
  | .hbm, ⟨11, _⟩ => ⟨S6, .f32⟩
  | .hbm, ⟨12, _⟩ => ⟨S1x6400000, .i32⟩
  | .hbm, ⟨13, _⟩ => ⟨S6400000, .i32⟩
  | .hbm, ⟨14, _⟩ => ⟨S1x6400000, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x16, .f32⟩
  | .hbm, ⟨25, _⟩ => ⟨S6400000x16, .f32⟩
  | .hbm, ⟨26, _⟩ => ⟨S_, .f32⟩
  | .hbm, ⟨27, _⟩ => ⟨S6400000x16, .f32⟩
  | .hbm, ⟨28, _⟩ => ⟨S6400000x16, .f32⟩
  | .hbm, ⟨29, _⟩ => ⟨S_, .f32⟩
  | .hbm, ⟨30, _⟩ => ⟨S100000x16, .f32⟩
  | .hbm, ⟨31, _⟩ => ⟨S6400000x1, .i32⟩
  | .hbm, ⟨32, _⟩ => ⟨S100000x16, .f32⟩
  | .hbm, ⟨33, _⟩ => ⟨S100000x16, .f32⟩
  | .hbm, ⟨34, _⟩ => ⟨S100000x16, .f32⟩
  | .hbm, ⟨35, _⟩ => ⟨S1x16, .f32⟩
  | .hbm, ⟨36, _⟩ => ⟨S100000x16, .f32⟩
  | .hbm, ⟨37, _⟩ => ⟨S100000x16, .f32⟩
  | .hbm, ⟨38, _⟩ => ⟨S_, .f32⟩
  | .hbm, ⟨39, _⟩ => ⟨S100000x16, .f32⟩
  | .hbm, ⟨40, _⟩ => ⟨S100000x16, .f32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S100000x16, .f32⟩
  | .hbm, ⟨45, _⟩ => ⟨S_, .f32⟩
  | .hbm, ⟨46, _⟩ => ⟨S100000x16, .f32⟩
  | .hbm, ⟨47, _⟩ => ⟨S100000x16, .f32⟩
  | .hbm, ⟨48, _⟩ => ⟨S1x6400000, .i32⟩
  | .hbm, ⟨49, _⟩ => ⟨S6400000, .i32⟩
  | .hbm, ⟨50, _⟩ => ⟨S1x6400000, .i32⟩
  | .hbm, ⟨51, _⟩ => ⟨S6400000, .i32⟩
  | .hbm, ⟨52, _⟩ => ⟨S_, .i32⟩
  | .hbm, ⟨53, _⟩ => ⟨S6400000, .i32⟩
  | .hbm, ⟨54, _⟩ => ⟨S6400000, .i1⟩
  | .hbm, ⟨55, _⟩ => ⟨S_, .i32⟩
  | .hbm, ⟨56, _⟩ => ⟨S6400000, .i32⟩
  | .hbm, ⟨57, _⟩ => ⟨S6400000, .i32⟩
  | .hbm, ⟨58, _⟩ => ⟨S6400000, .i32⟩
  | .hbm, ⟨59, _⟩ => ⟨S6400000x1, .i32⟩
  | .hbm, ⟨60, _⟩ => ⟨S6400000x16, .f32⟩
  | .hbm, ⟨61, _⟩ => ⟨S6400000x16, .f32⟩
  | .hbm, ⟨62, _⟩ => ⟨S_, .f32⟩
  | .hbm, ⟨63, _⟩ => ⟨S6400000x16, .f32⟩
  | .hbm, ⟨64, _⟩ => ⟨S6400000x16, .f32⟩
  | .hbm, ⟨65, _⟩ => ⟨S_, .f32⟩
  | .hbm, ⟨66, _⟩ => ⟨S100000x16, .f32⟩
  | .hbm, ⟨67, _⟩ => ⟨S6400000x1, .i32⟩
  | .hbm, ⟨68, _⟩ => ⟨S100000x16, .f32⟩
  | .hbm, ⟨69, _⟩ => ⟨S100000x16, .f32⟩
  | .hbm, ⟨70, _⟩ => ⟨S100000x6, .f32⟩
  | .hbm, ⟨71, _⟩ => ⟨S1x6, .f32⟩
  | .hbm, ⟨72, _⟩ => ⟨S100000x6, .f32⟩
  | .hbm, ⟨73, _⟩ => ⟨S100000x6, .f32⟩
  | .hbm, ⟨74, _⟩ => ⟨S_, .f32⟩
  | .hbm, ⟨75, _⟩ => ⟨S100000x6, .f32⟩
  | .hbm, ⟨76, _⟩ => ⟨S100000x6, .f32⟩
  | .hbm, ⟨77, _⟩ => ⟨S100000x6, .f32⟩
  | .hbm, ⟨78, _⟩ => ⟨S1x6, .f32⟩
  | .hbm, ⟨79, _⟩ => ⟨S100000x6, .f32⟩
  | .hbm, ⟨80, _⟩ => ⟨S100000x6, .f32⟩
  | .hbm, ⟨81, _⟩ => ⟨S_, .f32⟩
  | .hbm, ⟨82, _⟩ => ⟨S1000x6, .f32⟩
  | .hbm, ⟨83, _⟩ => ⟨S100000x1, .i32⟩
  | .hbm, ⟨84, _⟩ => ⟨S1000x6, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S1000, .f32⟩
  | .hbm, ⟨89, _⟩ => ⟨S100000x1, .i32⟩
  | .hbm, ⟨90, _⟩ => ⟨S1000, .f32⟩
  | .hbm, ⟨91, _⟩ => ⟨S_, .f32⟩
  | .hbm, ⟨92, _⟩ => ⟨S1000, .f32⟩
  | .hbm, ⟨93, _⟩ => ⟨S1000, .f32⟩
  | .hbm, ⟨94, _⟩ => ⟨S1000x1, .f32⟩
  | .hbm, ⟨95, _⟩ => ⟨S1000x6, .f32⟩
  | .hbm, ⟨96, _⟩ => ⟨S1000x6, .f32⟩
  | .hbm, ⟨97, _⟩ => ⟨S_, .f32⟩
  | .hbm, ⟨98, _⟩ => ⟨S1000, .f32⟩
  | .hbm, ⟨99, _⟩ => ⟨S_, .f32⟩
  | .hbm, ⟨100, _⟩ => ⟨S1000, .f32⟩
  | .hbm, ⟨101, _⟩ => ⟨S1000, .f32⟩
  | .hbm, ⟨102, _⟩ => ⟨S1000x1, .f32⟩
  | .hbm, ⟨103, _⟩ => ⟨S1000x6, .f32⟩
  | .hbm, ⟨104, _⟩ => ⟨S1000x6, .f32⟩
  | .hbm, ⟨105, _⟩ => ⟨S1000x6, .f32⟩
  | .hbm, ⟨106, _⟩ => ⟨S_, .f32⟩
  | .hbm, ⟨107, _⟩ => ⟨S1000, .f32⟩
  | .hbm, ⟨108, _⟩ => ⟨S1000x1, .f32⟩
  | .hbm, ⟨109, _⟩ => ⟨S1000x1, .f32⟩
  | .hbm, ⟨110, _⟩ => ⟨S1000x6, .f32⟩
  | .hbm, ⟨111, _⟩ => ⟨S1000x6, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_1 : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call3_cst : Ref sig .tc := ⟨.hbm, 62, rfl⟩
abbrev main_call3_v0 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call4_cst : Ref sig .tc := ⟨.hbm, 74, rfl⟩
abbrev main_call4_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_4 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_7 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call5_cst : Ref sig .tc := ⟨.hbm, 97, rfl⟩
abbrev main_call5_v0 : Ref sig .tc := ⟨.hbm, 98, rfl⟩
abbrev main_call5_cst_0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_v6 : Ref sig .tc := ⟨.hbm, 105, rfl⟩
abbrev main_call5_cst_1 : Ref sig .tc := ⟨.hbm, 106, rfl⟩
abbrev main_call5_v7 : Ref sig .tc := ⟨.hbm, 107, rfl⟩
abbrev main_call5_v8 : Ref sig .tc := ⟨.hbm, 108, rfl⟩
abbrev main_call5_v9 : Ref sig .tc := ⟨.hbm, 109, rfl⟩
abbrev main_call5_v10 : Ref sig .tc := ⟨.hbm, 110, rfl⟩
abbrev main_v65 : Ref sig .tc := ⟨.hbm, 111, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x16 : S_.BroadcastsInDim S6400000x16 (![] : Fin 0 → Fin S6400000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  bcast_S_S100000x6 : S_.BroadcastsInDim S100000x6 (![] : Fin 0 → Fin S100000x6.rank)
  bcast_S_S1000x6 : S_.BroadcastsInDim S1000x6 (![] : Fin 0 → Fin S1000x6.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x6_0_1 : S1000x1.BroadcastsInDim S1000x6 (![0, 1] : Fin 2 → Fin S1000x6.rank)
  reducesTo_S1000x6_S1000_d1 : S1000x6.ReducesTo [1] S1000
  h_S_ : 0 < S_.numel
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S100000x16_S16x16_S100000x16_1_0_0_1_n_n_wf : DotDims.WF S100000x16 S16x16 S100000x16 [1] [0] [0] [1] [] []
  dot_S100000x16_S16x6_S100000x6_1_0_0_1_n_n_wf : DotDims.WF S100000x16 S16x6 S100000x6 [1] [0] [0] [1] [] []
  dot_S100000x6_S6x6_S100000x6_1_0_0_1_n_n_wf : DotDims.WF S100000x6 S6x6 S100000x6 [1] [0] [0] [1] [] []
  scatter_S1000x6_S100000x1_S100000x6_1_0_0_1_wf : ScatterDims.WF S1000x6 S100000x1 S100000x6 [1] [0] [0] 1
  scatter_S1000_S100000x1_S100000_n_0_0_1_wf : ScatterDims.WF S1000 S100000x1 S100000 [] [0] [0] 1

variable [Facts₀]

def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x6_S100000x6_1_0_0_1_n_n : DotDims S100000x16 S16x6 S100000x6 where
  lhsContracting := [1]
  rhsContracting := [0]
  lhsNonContracting := [0]
  rhsNonContracting := [1]
  lhsBatch := []
  rhsBatch := []
  wf := dot_S100000x16_S16x6_S100000x6_1_0_0_1_n_n_wf
def dot_S100000x6_S6x6_S100000x6_1_0_0_1_n_n : DotDims S100000x6 S6x6 S100000x6 where
  lhsContracting := [1]
  rhsContracting := [0]
  lhsNonContracting := [0]
  rhsNonContracting := [1]
  lhsBatch := []
  rhsBatch := []
  wf := dot_S100000x6_S6x6_S100000x6_1_0_0_1_n_n_wf
def scatter_S1000x6_S100000x1_S100000x6_1_0_0_1 : ScatterDims S1000x6 S100000x1 S100000x6 where
  updateWindowDims := [1]
  insertedWindowDims := [0]
  scatterDimsToOperandDims := [0]
  indexVectorDim := 1
  wf := scatter_S1000x6_S100000x1_S100000x6_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Spec.lean ====
/-
  The mathematics both programs compute, on the extended reals, index by index.

  A GINE layer sends along every edge the message relu(x[src] + e), sums the messages arriving at each node, adds the
  node's own features, and passes the sum through a two-layer perceptron: relu((x + aggr)·Wa + ba)·Wb + bb, followed by
  an outer activation (relu after the first layer of the network, nothing after the second). The entries below say what
  one message and one perceptron output are at an index; which rows a gather reads and which a scatter-add sums are the
  same host operations in both programs and are never opened.
-/
import Idealize.ShloMosaic.PureOps.Ideal
import Idealize.ShloMosaic.PureOps.Ideal.Laws
import Idealize.ShloMosaic.Lib.ValueIdx
import proofs.«155975_j53807350284451_1_alg».proof.Proof.LibSageSpec

noncomputable section

open scoped BigOperators

namespace Cert.Gine

open Idealize.ShloMosaic Idealize.ShloMosaic.ValueIdx Idealize.ShloMosaic.SageSpec

/-- A vector of `n` extended reals. -/
abbrev Row (n : Nat) : Type := (⟨1, ![n]⟩ : Shape).Idx → EReal

/-- relu as both programs spell it: the maximum with the f32 zero word. -/
def relu0 (s : EReal) : EReal := max s (Ideal.ofBits .f32 0x00000000#32)

/-- One edge message at an index: relu (x_src + e). -/
def msgF {E D : Nat} (g ea : Mat E D) : Mat E D := fun i => relu0 (g i + ea i)

/-- The perceptron's hidden layer at (p, q): relu (row p of (x + aggr) against column q of Wa, plus ba q). -/
def hidF {n k h : Nat} (x aggr : Mat n k) (Wa : Mat k h) (ba : Row h) : Mat n h :=
  fun j => relu0 (rowDot (fun i => x i + aggr i) Wa (j 0) (j 1) + ba (ix1 (j 1)))

/-- The perceptron's output at (p, q): act (row p of the hidden layer against column q of Wb, plus bb q). -/
def mlpF {n k h o : Nat} (act : EReal → EReal) (x aggr : Mat n k) (Wa : Mat k h) (ba : Row h) (Wb : Mat h o) (bb : Row o) :
    Mat n o :=
  fun i => act (rowDot (hidF x aggr Wa ba) Wb (i 0) (i 1) + bb (ix1 (i 1)))

end Cert.Gine

end
-- ==== Proof.KEdge.lean ====
/-
  The two edge-message regions of the kernel, read as one matrix each.

  A message region walks the 6 400 000 edges in 640 blocks of 10 000 rows. Block t of each of its three arrays is rows
  10000·t … 10000·t + 9999, all 16 columns: the gathered source features, the edge attributes, and the output move
  together. On a block the body adds the two inputs entry by entry and takes the maximum with zero, so entry (p, q) of
  the output depends on entry (p, q) of the two inputs and on nothing else. Since the 640 blocks tile the rows, the
  output array ends holding relu (source + attribute) at every index: the message matrix of the specification. The two
  regions differ only in which gathered features they read (those of the network's input for the first layer, those of
  the first layer's output for the second); the edge attributes are the same array.
-/
import proofs.«155975_j53807350284451_1_alg».proof.Proof.Gen.KernelIdeal.Frame
import proofs.«155975_j53807350284451_1_alg».proof.Proof.Spec
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The source rows gathered for the first layer, as a matrix of extended reals. -/
abbrev srcA (c : Dev nD) : SageSpec.Mat 6400000 16 := V c main_v10
/-- The source rows gathered for the second layer, as a matrix of extended reals. -/
abbrev srcB (c : Dev nD) : SageSpec.Mat 6400000 16 := V c main_v22
/-- The edge attributes, as a matrix of extended reals. -/
abbrev edgeA (c : Dev nD) : SageSpec.Mat 6400000 16 := V c main_arg2

/-- The body reads and writes its blocks from their origin. -/
theorem hz : (![0, 0] : Fin 2 → Nat) = fun _ => 0 := funext fun a => by fin_cases a <;> rfl

/-! ## The first message region -/

/-- What the body stores, at an index of its block: the two loaded blocks added entry by entry, then the maximum with
    zero. -/
theorem pay0_apply (x0 x1 : Vec Ideal S10000x16 .f32) (j : S10000x16.Idx) :
    k0_pay1 x0 x1 j = Cert.Gine.relu0 (x0 j + x1 j) := by
  unfold k0_pay1
  simp only [shapeCast_self]
  rfl

/-- The three index maps agree at every grid point: point `t` is block `(t, 0)` of the source rows, of the edge
    attributes and of the output alike. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- What point `t` writes back is block `t` of the message matrix: entry `j` of the block is row
    `10000 · t + j 0`, column `j 1` in all three arrays, so the body's sum of the two input blocks there is the
    message at that row and column. -/
theorem flushed0_eq (c : Dev nD) (t : Fin cfg0.N) :
    (dat0 (F := Ideal) V c).flushed 2 t
      = ((cfg0.win 2).blk t).view.read (Elt Ideal) (Cert.Gine.msgF (V c main_v10) (V c main_arg2)) := by
  show (cfg0.win 2).cut (grid0.coords t) ((dat0 V c).after 2 t) = _
  rw [after0_2]
  unfold out0_2
  rw [View.canon_unit_zero hz]
  simp only [View.ld_unit_zero (S := S10000x16) hz]
  obtain ⟨e0, e1, e2, e3, e4, e5⟩ := idx_facts0 t
  funext j
  show k0_pay1 (iblk0 V c 0 t) (iblk0 V c 1 t) j = _
  refine (pay0_apply (iblk0 V c 0 t) (iblk0 V c 1 t) j).trans ?_
  show Cert.Gine.relu0 (srcA V c (((cfg0.win 0).blk t).view.emb j) + edgeA V c (((cfg0.win 1).blk t).view.emb j))
    = Cert.Gine.relu0 (srcA V c (((cfg0.win 2).blk t).view.emb j) + edgeA V c (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 16 + 1 * (j 1).val = win0_2.index t (1 : Fin 2) * 16 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 16 + 1 * (j 1).val = win0_2.index t (1 : Fin 2) * 16 + 1 * (j 1).val; omega
  rw [h0, h1]

/-- An index of the output array lies in point `t`'s block iff each coordinate lies in the block's range on its axis. -/
theorem mem_blk0 (t : Fin cfg0.N) (i : S6400000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v11).slice (win0_2.rect t)).set ↔ _
  rw [View.set_slice_whole, Rect.mem_set_unit]
  exact Iff.rfl

/-- The 640 blocks tile the output: row `p` lies in the block of point `p / 10000`, and every block spans all 16
    columns. -/
theorem cover0 (i : S6400000x16.Idx) :
    ∃ t : Fin cfg0.N, (cfg0.win 2).flush t = true ∧ i ∈ ((cfg0.win 2).blk t).view.set := by
  have hi0 : (i 0).val < 6400000 := (i 0).isLt
  have hi1 : (i 1).val < 16 := (i 1).isLt
  have hN : cfg0.N = 640 := N_0
  have hlt : (i 0).val / 10000 < cfg0.N := by rw [hN]; omega
  obtain ⟨e0, e1, e2, e3, e4, e5⟩ := idx_facts0 ⟨(i 0).val / 10000, hlt⟩
  have e4' : win0_2.index ⟨(i 0).val / 10000, hlt⟩ (0 : Fin 2) = (i 0).val / 10000 := e4
  refine ⟨⟨(i 0).val / 10000, hlt⟩, flush0_2 _, ?_⟩
  rw [mem_blk0]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4']; omega
  | ⟨1, _⟩ =>
    show win0_2.index ⟨(i 0).val / 10000, hlt⟩ (1 : Fin 2) * 16 ≤ (i 1).val ∧ (i 1).val < win0_2.index ⟨(i 0).val / 10000, hlt⟩ (1 : Fin 2) * 16 + 16
    rw [e5]; omega

/-- After the region the output array holds the message matrix relu (source + attribute), every entry of it. -/
theorem arr0 (c : Dev nD) : (Gen.dat0 (F := Ideal) V c).arrAt 2 cfg0.N = Cert.Gine.msgF (V c main_v10) (V c main_arg2) :=
  (dat0 (F := Ideal) V c).arrAt_eq_of_cover 2 (Cert.Gine.msgF (V c main_v10) (V c main_arg2)) (fun t _ => flushed0_eq V c t) cover0

/-! ## The second message region -/

/-- What the body stores, at an index of its block: the two loaded blocks added entry by entry, then the maximum with
    zero. -/
theorem pay2_apply (x0 x1 : Vec Ideal S10000x16 .f32) (j : S10000x16.Idx) :
    k2_pay1 x0 x1 j = Cert.Gine.relu0 (x0 j + x1 j) := by
  unfold k2_pay1
  simp only [shapeCast_self]
  rfl

/-- The three index maps agree at every grid point: point `t` is block `(t, 0)` of the source rows, of the edge
    attributes and of the output alike. -/
theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point `t` writes back is block `t` of the message matrix: entry `j` of the block is row
    `10000 · t + j 0`, column `j 1` in all three arrays, so the body's sum of the two input blocks there is the
    message at that row and column. -/
theorem flushed2_eq (c : Dev nD) (t : Fin cfg2.N) :
    (dat2 (F := Ideal) V c).flushed 2 t
      = ((cfg2.win 2).blk t).view.read (Elt Ideal) (Cert.Gine.msgF (V c main_v22) (V c main_arg2)) := by
  show (cfg2.win 2).cut (grid2.coords t) ((dat2 V c).after 2 t) = _
  rw [after2_2]
  unfold out2_2
  rw [View.canon_unit_zero hz]
  simp only [View.ld_unit_zero (S := S10000x16) hz]
  obtain ⟨e0, e1, e2, e3, e4, e5⟩ := idx_facts2 t
  funext j
  show k2_pay1 (iblk2 V c 0 t) (iblk2 V c 1 t) j = _
  refine (pay2_apply (iblk2 V c 0 t) (iblk2 V c 1 t) j).trans ?_
  show Cert.Gine.relu0 (srcB V c (((cfg2.win 0).blk t).view.emb j) + edgeA V c (((cfg2.win 1).blk t).view.emb j))
    = Cert.Gine.relu0 (srcB V c (((cfg2.win 2).blk t).view.emb j) + edgeA V c (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * (j 1).val = win2_2.index t (1 : Fin 2) * 16 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 16 + 1 * (j 1).val = win2_2.index t (1 : Fin 2) * 16 + 1 * (j 1).val; omega
  rw [h0, h1]

/-- An index of the output array lies in point `t`'s block iff each coordinate lies in the block's range on its axis. -/
theorem mem_blk2 (t : Fin cfg2.N) (i : S6400000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v23).slice (win2_2.rect t)).set ↔ _
  rw [View.set_slice_whole, Rect.mem_set_unit]
  exact Iff.rfl

/-- The 640 blocks tile the output: row `p` lies in the block of point `p / 10000`, and every block spans all 16
    columns. -/
theorem cover2 (i : S6400000x16.Idx) :
    ∃ t : Fin cfg2.N, (cfg2.win 2).flush t = true ∧ i ∈ ((cfg2.win 2).blk t).view.set := by
  have hi0 : (i 0).val < 6400000 := (i 0).isLt
  have hi1 : (i 1).val < 16 := (i 1).isLt
  have hN : cfg2.N = 640 := N_2
  have hlt : (i 0).val / 10000 < cfg2.N := by rw [hN]; omega
  obtain ⟨e0, e1, e2, e3, e4, e5⟩ := idx_facts2 ⟨(i 0).val / 10000, hlt⟩
  have e4' : win2_2.index ⟨(i 0).val / 10000, hlt⟩ (0 : Fin 2) = (i 0).val / 10000 := e4
  refine ⟨⟨(i 0).val / 10000, hlt⟩, flush2_2 _, ?_⟩
  rw [mem_blk2]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4']; omega
  | ⟨1, _⟩ =>
    show win2_2.index ⟨(i 0).val / 10000, hlt⟩ (1 : Fin 2) * 16 ≤ (i 1).val ∧ (i 1).val < win2_2.index ⟨(i 0).val / 10000, hlt⟩ (1 : Fin 2) * 16 + 16
    rw [e5]; omega

/-- After the region the output array holds the message matrix relu (source + attribute), every entry of it. -/
theorem arr2 (c : Dev nD) : (Gen.dat2 (F := Ideal) V c).arrAt 2 cfg2.N = Cert.Gine.msgF (V c main_v22) (V c main_arg2) :=
  (dat2 (F := Ideal) V c).arrAt_eq_of_cover 2 (Cert.Gine.msgF (V c main_v22) (V c main_arg2)) (fun t _ => flushed2_eq V c t) cover2

end Cert.KernelIdeal.Val

end
-- ==== Proof.KMlp1.lean ====
/-
  The first node update, read off the kernel's blocks.

  The region computes o = relu (relu ((x + aggr) · Wa + ba) · Wb + bb) over the 100000 nodes, 4000 rows at a time: at
  grid point t the two row-blocked inputs and the output hold rows 4000 t … 4000 t + 3999 of their arrays, while the
  two weight matrices and the two biases are held whole at every point. A row of the output depends on the same row of
  x + aggr only (each product contracts the 16 features of one row against a column of a weight matrix), so the value a
  point computes on its block is the perceptron of the whole arrays restricted to the block's rows; the 25 blocks tile
  the rows, hence the output array ends as that perceptron everywhere. The narrowing of the products' operands to a
  shorter float format changes nothing at the extended reals, and each product accumulates into zero.
-/
import proofs.«155975_j53807350284451_1_alg».proof.Proof.Gen.KernelIdeal.Frame
import proofs.«155975_j53807350284451_1_alg».proof.Proof.Spec
import proofs.«155975_j53807350284451_1_alg».proof.Proof.LibSageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val1

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.SageSpec Cert.Gine

/-! ## The product's dimension record -/

/-- The left operand is read at the result's row on its first axis … -/
theorem dot_l0 (i : S4000x16.Idx) (q : dot_S4000x16_S16x16_S4000x16_1_0_0_1_n_n.contr.Idx) :
    (dot_S4000x16_S16x16_S4000x16_1_0_0_1_n_n.lhsIdx i q 0).val = (i 0).val := by
  unfold DotDims.lhsIdx
  rw [dif_neg (show ¬(0 : Fin S4000x16.rank) ∈ dot_S4000x16_S16x16_S4000x16_1_0_0_1_n_n.lhsBatch by decide), dif_pos (show (0 : Fin S4000x16.rank) ∈ dot_S4000x16_S16x16_S4000x16_1_0_0_1_n_n.lhsNonContracting by decide)]
  rfl
/-- … and at the contracted coordinate on its second; -/
theorem dot_l1 (i : S4000x16.Idx) (q : dot_S4000x16_S16x16_S4000x16_1_0_0_1_n_n.contr.Idx) :
    (dot_S4000x16_S16x16_S4000x16_1_0_0_1_n_n.lhsIdx i q 1).val = (q ⟨0, by decide⟩).val :=
  dot_S4000x16_S16x16_S4000x16_1_0_0_1_n_n.lhsIdx_val_of_single rfl i q
/-- the right operand at the contracted coordinate on its first axis … -/
theorem dot_r0 (i : S4000x16.Idx) (q : dot_S4000x16_S16x16_S4000x16_1_0_0_1_n_n.contr.Idx) :
    (dot_S4000x16_S16x16_S4000x16_1_0_0_1_n_n.rhsIdx i q 0).val = (q ⟨0, by decide⟩).val :=
  dot_S4000x16_S16x16_S4000x16_1_0_0_1_n_n.rhsIdx_val_of_single rfl i q
/-- … and at the result's column on its second. -/
theorem dot_r1 (i : S4000x16.Idx) (q : dot_S4000x16_S16x16_S4000x16_1_0_0_1_n_n.contr.Idx) :
    (dot_S4000x16_S16x16_S4000x16_1_0_0_1_n_n.rhsIdx i q 1).val = (i 1).val := by
  unfold DotDims.rhsIdx
  rw [dif_neg (show ¬(1 : Fin S16x16.rank) ∈ dot_S4000x16_S16x16_S4000x16_1_0_0_1_n_n.rhsBatch by decide), dif_pos (show (1 : Fin S16x16.rank) ∈ dot_S4000x16_S16x16_S4000x16_1_0_0_1_n_n.rhsNonContracting by decide)]
  rfl

/-- So the record is that of a plain [4000 × 16] · [16 × 16] product. -/
theorem plainDot : PlainDot dot_S4000x16_S16x16_S4000x16_1_0_0_1_n_n where
  rank := rfl
  size := fun _ => rfl
  l0 := dot_l0
  l1 := fun i q _ => dot_l1 i q
  r0 := fun i q _ => dot_r0 i q
  r1 := dot_r1

/-! ## One dense layer of the body at an index -/

/-- relu (a · w + b) as the body spells it — the operands narrowed, the product accumulated into zero, the bias row
    broadcast over the 4000 rows, the maximum with a splat zero — read at (p, q): row p of `a` against column q of `w`,
    plus `b q`, through relu. -/
theorem dense_at (a : FVec Ideal S4000x16 .f32) (w : Vec Ideal S16x16 .f32) (b : Vec Ideal S16 .f32) (p : Fin 4000) (q : Fin 16) :
    maximumf (addf (matmul dot_S4000x16_S16x16_S4000x16_1_0_0_1_n_n none (truncf .bf16 a bitsLt_bf16_f32) (truncf .bf16 w bitsLt_bf16_f32) (constant (F := Ideal) S4000x16 .f32 0x00000000#32))
        (broadcastTo S4000x16 (shapeCast S1x16 b shapeCasts_S16_S1x16) broadcasts_S1x16_S4000x16))
      (broadcast S4000x16 (Scalar.ofBits (F := Ideal) .f32 0x00000000#32)) (ix2 p q)
    = relu0 (rowDot (fun i => a i) (fun i => w i) p q + b (ix1 q)) := by
  rw [maximumf_apply, addf_apply, broadcast_apply]
  rw [broadcastTo_1b_ab_apply, shapeCast_a_1a_apply]
  exact congrArg (fun s => max (s + b (ix1 q)) (FloatOps.ofBits (F := Ideal) .f32 0x00000000#32))
    (matmul_zero_at plainDot none (truncf .bf16 a bitsLt_bf16_f32) (truncf .bf16 w bitsLt_bf16_f32) (ix2 p q))

/-- The body's value is two dense layers, the first over the sum of the two row blocks. -/
theorem pay_eq (x0 x1 : Vec Ideal S4000x16 .f32) (w : Vec Ideal S16x16 .f32) (b : Vec Ideal S16 .f32) (w' : Vec Ideal S16x16 .f32) (b' : Vec Ideal S16 .f32)
    (p : Fin 4000) (q : Fin 16) :
    k1_pay1 (F := Ideal) x0 x1 w b w' b' (ix2 p q) = mlpF relu0 x0 x1 w b w' b' (ix2 p q) := by
  unfold k1_pay1
  refine (dense_at _ w' b' p q).trans ?_
  unfold mlpF
  refine congrArg (fun (h : Mat 4000 16) => relu0 (rowDot h w' p q + b' (ix1 q))) (funext fun j => ?_)
  obtain ⟨p', q', rfl⟩ : ∃ (p' : Fin 4000) (q' : Fin 16), j = ix2 p' q' := ⟨j 0, j 1, eq_ix2 j⟩
  refine (dense_at _ w b p' q').trans ?_
  unfold hidF
  refine congrArg (fun (h : Mat 4000 16) => relu0 (rowDot h w p' q' + b (ix1 q'))) (funext fun i => ?_)
  rw [addf_apply, shapeCast_self]

/-- An output row of the perceptron depends on one row of `x + aggr` only: two pairs of matrices that agree on a row
    give the same output on that row. -/
theorem mlpF_row {n n' : Nat} (x a : Mat n 16) (X A : Mat n' 16) (Wa : Mat 16 16) (ba : Row 16) (Wb : Mat 16 16) (bb : Row 16)
    (p : Fin n) (r : Fin n') (q : Fin 16)
    (hx : ∀ κ : Fin 16, x (ix2 p κ) = X (ix2 r κ)) (ha : ∀ κ : Fin 16, a (ix2 p κ) = A (ix2 r κ)) :
    mlpF relu0 x a Wa ba Wb bb (ix2 p q) = mlpF relu0 X A Wa ba Wb bb (ix2 r q) := by
  show relu0 ((∑ j : Fin 16, relu0 ((∑ κ : Fin 16, (x (ix2 p κ) + a (ix2 p κ)) * Wa (ix2 κ j)) + ba (ix1 j)) * Wb (ix2 j q)) + bb (ix1 q))
    = relu0 ((∑ j : Fin 16, relu0 ((∑ κ : Fin 16, (X (ix2 r κ) + A (ix2 r κ)) * Wa (ix2 κ j)) + ba (ix1 j)) * Wb (ix2 j q)) + bb (ix1 q))
  simp only [hx, ha]

/-- The body's value at an index of the block, from what the two row blocks hold on that row. -/
theorem pay_at_row (x0 x1 : Vec Ideal S4000x16 .f32) (w : Vec Ideal S16x16 .f32) (b : Vec Ideal S16 .f32) (w' : Vec Ideal S16x16 .f32) (b' : Vec Ideal S16 .f32)
    (X A : Mat 100000 16) (j : S4000x16.Idx) (i : S100000x16.Idx)
    (hx : ∀ κ : Fin 16, x0 (ix2 (j 0) κ) = X (ix2 (i 0) κ)) (ha : ∀ κ : Fin 16, x1 (ix2 (j 0) κ) = A (ix2 (i 0) κ)) (h1 : j 1 = i 1) :
    k1_pay1 (F := Ideal) x0 x1 w b w' b' j = mlpF relu0 X A w b w' b' i := by
  obtain ⟨p, q, rfl⟩ : ∃ (p : Fin 4000) (q : Fin 16), j = ix2 p q := ⟨j 0, j 1, eq_ix2 j⟩
  obtain ⟨r, q', rfl⟩ : ∃ (r : Fin 100000) (q' : Fin 16), i = ix2 r q' := ⟨i 0, i 1, eq_ix2 i⟩
  obtain rfl : q = q' := h1
  exact (pay_eq x0 x1 w b w' b' p q).trans (mlpF_row x0 x1 X A w b w' b' p r q hx ha)

/-! ## From blocks to the array -/

variable (V : (c : Dev nD) → (b : Ref sig .tc) → Buf (Elt Ideal) ((c : Thread nD τ).loc b))

/-- The zero offsets of a whole-buffer access, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid points: the two row-blocked inputs and the output move together, block
    `t` at rows `4000 t …`; the weights and biases stay at their whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Block `t` of `x` holds rows `4000 t … 4000 t + 3999` of the array. -/
theorem xblk_apply (c : Dev nD) (t : Fin cfg1.N) (y : S4000x16.Idx) (k : S100000x16.Idx)
    (hk0 : (k 0).val = 4000 * t.val + (y 0).val) (hk1 : (k 1).val = (y 1).val) :
    (iblk1 V c 0 t : Vec Ideal S4000x16 .f32) y = (V c main_arg0 : S100000x16.Idx → EReal) k := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 4000 + 1 * (y 0).val = (k 0).val; rw [e0, hk0]; omega
  | ⟨1, _⟩ => show win1_0.index t 1 * 16 + 1 * (y 1).val = (k 1).val; rw [e1, hk1]; omega

/-- Block `t` of `aggr` likewise. -/
theorem ablk_apply (c : Dev nD) (t : Fin cfg1.N) (y : S4000x16.Idx) (k : S100000x16.Idx)
    (hk0 : (k 0).val = 4000 * t.val + (y 0).val) (hk1 : (k 1).val = (y 1).val) :
    (iblk1 V c 1 t : Vec Ideal S4000x16 .f32) y = (V c main_v14 : S100000x16.Idx → EReal) k := by
  obtain ⟨-, -, e0, e1, -⟩ := idx_facts t
  unfold iblk1
  rw [View.read_apply]
  show V c main_v14 _ = V c main_v14 _
  congr 1
  funext a
  apply Fin.ext
  match a with
  | ⟨0, _⟩ => show win1_1.index t 0 * 4000 + 1 * (y 0).val = (k 0).val; rw [e0, hk0]; omega
  | ⟨1, _⟩ => show win1_1.index t 1 * 16 + 1 * (y 1).val = (k 1).val; rw [e1, hk1]; omega

/-- The weights' and biases' windows hold their whole arrays at every point: the first weight matrix. -/
theorem wablk_eq (c : Dev nD) (t : Fin cfg1.N) : (iblk1 V c 2 t : Vec Ideal S16x16 .f32) = V c main_arg4 := by
  obtain ⟨-, -, -, -, e0, e1, -⟩ := idx_facts t
  funext y
  unfold iblk1
  rw [View.read_apply]
  show V c main_arg4 _ = V c main_arg4 y
  congr 1
  funext a
  apply Fin.ext
  match a with
  | ⟨0, _⟩ => show win1_2.index t 0 * 16 + 1 * (y 0).val = (y 0).val; rw [e0]; omega
  | ⟨1, _⟩ => show win1_2.index t 1 * 16 + 1 * (y 1).val = (y 1).val; rw [e1]; omega

/-- The first bias. -/
theorem bablk_eq (c : Dev nD) (t : Fin cfg1.N) : (iblk1 V c 3 t : Vec Ideal S16 .f32) = V c main_arg5 := by
  obtain ⟨-, -, -, -, -, -, e0, -⟩ := idx_facts t
  funext y
  unfold iblk1
  rw [View.read_apply]
  show V c main_arg5 _ = V c main_arg5 y
  congr 1
  funext a
  apply Fin.ext
  match a with
  | ⟨0, _⟩ => show win1_3.index t 0 * 16 + 1 * (y 0).val = (y 0).val; rw [e0]; omega

/-- The second weight matrix. -/
theorem wbblk_eq (c : Dev nD) (t : Fin cfg1.N) : (iblk1 V c 4 t : Vec Ideal S16x16 .f32) = V c main_arg6 := by
  obtain ⟨-, -, -, -, -, -, -, e0, e1, -⟩ := idx_facts t
  funext y
  unfold iblk1
  rw [View.read_apply]
  show V c main_arg6 _ = V c main_arg6 y
  congr 1
  funext a
  apply Fin.ext
  match a with
  | ⟨0, _⟩ => show win1_4.index t 0 * 16 + 1 * (y 0).val = (y 0).val; rw [e0]; omega
  | ⟨1, _⟩ => show win1_4.index t 1 * 16 + 1 * (y 1).val = (y 1).val; rw [e1]; omega

/-- The second bias. -/
theorem bbblk_eq (c : Dev nD) (t : Fin cfg1.N) : (iblk1 V c 5 t : Vec Ideal S16 .f32) = V c main_arg7 := by
  obtain ⟨-, -, -, -, -, -, -, -, -, e0, -⟩ := idx_facts t
  funext y
  unfold iblk1
  rw [View.read_apply]
  show V c main_arg7 _ = V c main_arg7 y
  congr 1
  funext a
  apply Fin.ext
  match a with
  | ⟨0, _⟩ => show win1_5.index t 0 * 16 + 1 * (y 0).val = (y 0).val; rw [e0]; omega

/-- What point `t` writes back is block `t` of the perceptron of the whole arrays. -/
theorem flushed_eq (c : Dev nD) (t : Fin cfg1.N) :
    (dat1 (F := Ideal) V c).flushed 6 t = ((cfg1.win 6).blk t).view.read (Elt Ideal)
      (mlpF relu0 (V c main_arg0) (V c main_v14) (V c main_arg4) (V c main_arg5) (V c main_arg6) (V c main_arg7)) := by
  show (cfg1.win 6).cut (grid1.coords t) ((dat1 V c).after 6 t) = _
  rw [after1_6]
  unfold out1_6
  rw [View.canon_unit_zero hz2]
  simp only [View.ld_unit_zero (S := S4000x16) hz2, View.ld_unit_zero (S := S16x16) hz2, View.ld_unit_zero (S := S16) hz1]
  obtain ⟨-, -, -, -, -, -, -, -, -, -, e0, e1⟩ := idx_facts t
  funext j
  show k1_pay1 (F := Ideal) (iblk1 V c 0 t) (iblk1 V c 1 t) (iblk1 V c 2 t) (iblk1 V c 3 t) (iblk1 V c 4 t) (iblk1 V c 5 t) j
    = mlpF relu0 (V c main_arg0) (V c main_v14) (V c main_arg4) (V c main_arg5) (V c main_arg6) (V c main_arg7) (((cfg1.win 6).blk t).view.emb j)
  rw [wablk_eq V c t, bablk_eq V c t, wbblk_eq V c t, bbblk_eq V c t]
  have h0 : ((((cfg1.win 6).blk t).view.emb j) 0).val = 4000 * t.val + (j 0).val := by
    show win1_6.index t 0 * 4000 + 1 * (j 0).val = _; rw [e0]; omega
  have h1 : ((((cfg1.win 6).blk t).view.emb j) 1).val = (j 1).val := by
    show win1_6.index t 1 * 16 + 1 * (j 1).val = _; rw [e1]; omega
  exact pay_at_row (iblk1 V c 0 t) (iblk1 V c 1 t) (V c main_arg4) (V c main_arg5) (V c main_arg6) (V c main_arg7)
    (V c main_arg0) (V c main_v14) j (((cfg1.win 6).blk t).view.emb j)
    (fun κ => xblk_apply V c t (ix2 (j 0) κ) (ix2 ((((cfg1.win 6).blk t).view.emb j) 0) κ) h0 rfl)
    (fun κ => ablk_apply V c t (ix2 (j 0) κ) (ix2 ((((cfg1.win 6).blk t).view.emb j) 0) κ) h0 rfl)
    (Fin.ext h1.symm)

/-- An index of the array is in point `t`'s block iff each coordinate is in the block's range on its axis. -/
theorem mem_blk (t : Fin cfg1.N) (i : S100000x16.Idx) :
    i ∈ ((cfg1.win 6).blk t).view.set ↔ ∀ a : Fin 2, win1_6.index t a * S4000x16.size a ≤ (i a).val ∧ (i a).val < win1_6.index t a * S4000x16.size a + S4000x16.size a := by
  show i ∈ ((View.whole main_v15).slice (win1_6.rect t)).set ↔ _
  rw [View.set_slice_whole, Rect.mem_set_unit]
  exact Iff.rfl

/-- Row `r` of the array lies in the block of point `r / 4000`: the 25 blocks of 4000 rows tile the 100000 rows. -/
theorem cover (i : S100000x16.Idx) : ∃ t : Fin cfg1.N, (cfg1.win 6).flush t = true ∧ i ∈ ((cfg1.win 6).blk t).view.set := by
  have hi0 : (i 0).val < 100000 := (i 0).isLt
  have hi1 : (i 1).val < 16 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, e0, e1⟩ := idx_facts t
  refine ⟨t, flush1_6 t, ?_⟩
  rw [mem_blk]
  intro a
  match a with
  | ⟨0, _⟩ => show win1_6.index t 0 * 4000 ≤ (i 0).val ∧ (i 0).val < win1_6.index t 0 * 4000 + 4000; rw [e0, ht]; omega
  | ⟨1, _⟩ => show win1_6.index t 1 * 16 ≤ (i 1).val ∧ (i 1).val < win1_6.index t 1 * 16 + 16; rw [e1]; omega

/-- The first node update's output array after the region: the perceptron of the arrays the region found. -/
theorem arr1 (c : Dev nD) : (Gen.dat1 (F := Ideal) V c).arrAt 6 cfg1.N = Cert.Gine.mlpF Cert.Gine.relu0 (V c main_arg0) (V c main_v14) (V c main_arg4) (V c main_arg5) (V c main_arg6) (V c main_arg7) :=
  (dat1 (F := Ideal) V c).arrAt_eq_of_cover 6 _ (fun t _ => flushed_eq V c t) cover

end Cert.KernelIdeal.Val1

end
-- ==== Proof.KMlp3.lean ====
/-
  The second node update, read index by index.

  The region walks the 100000 node rows in 25 blocks of 4000. At each block it adds the node features to the aggregated
  messages, multiplies the sum by Wa, adds ba, clamps at zero, multiplies by Wb and adds bb; nothing is applied after the
  second product. The two weight matrices and the two biases are seen whole at every block. An entry (p, q) of a block's
  result depends on row p of the block's two inputs only, and row p of block t is row 4000·t + p of the arrays, so the
  blocks written back are the restrictions of one function of the whole arrays: the perceptron of the specification with
  the identity as its outer activation. At the extended reals a change of float format is the identity, so the two
  roundings to bf16 before the products disappear.
-/
import proofs.«155975_j53807350284451_1_alg».proof.Proof.Gen.KernelIdeal.Frame
import proofs.«155975_j53807350284451_1_alg».proof.Proof.Spec
import proofs.«155975_j53807350284451_1_alg».proof.Proof.LibSageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val3

open Cert.KernelIdeal Cert.KernelIdeal.Gen
open Idealize.ShloMosaic Idealize.ShloMosaic.TcCoe Idealize.SL.Sem
open Idealize.ShloMosaic.ValueIdx Idealize.ShloMosaic.SageSpec
open Idealize.ShloMosaic.Pipeline (Dat)

/-! ## The two products' dimension numbers: rows against columns -/

theorem lhsA_0 (i : S4000x6.Idx) (q : dot_S4000x16_S16x6_S4000x6_1_0_0_1_n_n.contr.Idx) :
    (dot_S4000x16_S16x6_S4000x6_1_0_0_1_n_n.lhsIdx i q 0).val = (i 0).val := by
  unfold DotDims.lhsIdx
  rw [dif_neg (show ¬(0 : Fin S4000x16.rank) ∈ dot_S4000x16_S16x6_S4000x6_1_0_0_1_n_n.lhsBatch by decide), dif_pos (show (0 : Fin S4000x16.rank) ∈ dot_S4000x16_S16x6_S4000x6_1_0_0_1_n_n.lhsNonContracting by decide)]
  rfl
theorem lhsA_1 (i : S4000x6.Idx) (q : dot_S4000x16_S16x6_S4000x6_1_0_0_1_n_n.contr.Idx) :
    (dot_S4000x16_S16x6_S4000x6_1_0_0_1_n_n.lhsIdx i q 1).val = (q ⟨0, by decide⟩).val :=
  dot_S4000x16_S16x6_S4000x6_1_0_0_1_n_n.lhsIdx_val_of_single rfl i q
theorem rhsA_0 (i : S4000x6.Idx) (q : dot_S4000x16_S16x6_S4000x6_1_0_0_1_n_n.contr.Idx) :
    (dot_S4000x16_S16x6_S4000x6_1_0_0_1_n_n.rhsIdx i q 0).val = (q ⟨0, by decide⟩).val :=
  dot_S4000x16_S16x6_S4000x6_1_0_0_1_n_n.rhsIdx_val_of_single rfl i q
theorem rhsA_1 (i : S4000x6.Idx) (q : dot_S4000x16_S16x6_S4000x6_1_0_0_1_n_n.contr.Idx) :
    (dot_S4000x16_S16x6_S4000x6_1_0_0_1_n_n.rhsIdx i q 1).val = (i 1).val := by
  unfold DotDims.rhsIdx
  rw [dif_neg (show ¬(1 : Fin S16x6.rank) ∈ dot_S4000x16_S16x6_S4000x6_1_0_0_1_n_n.rhsBatch by decide), dif_pos (show (1 : Fin S16x6.rank) ∈ dot_S4000x16_S16x6_S4000x6_1_0_0_1_n_n.rhsNonContracting by decide)]
  rfl

/-- The first product contracts the 16 feature columns of the summed rows with the 16 rows of Wa. -/
theorem plainA : PlainDot (n := 4000) (k := 16) (m := 6) dot_S4000x16_S16x6_S4000x6_1_0_0_1_n_n where
  rank := rfl
  size := fun _ => rfl
  l0 := lhsA_0
  l1 := fun i q _ => lhsA_1 i q
  r0 := fun i q _ => rhsA_0 i q
  r1 := rhsA_1

theorem lhsB_0 (i : S4000x6.Idx) (q : dot_S4000x6_S6x6_S4000x6_1_0_0_1_n_n.contr.Idx) :
    (dot_S4000x6_S6x6_S4000x6_1_0_0_1_n_n.lhsIdx i q 0).val = (i 0).val := by
  unfold DotDims.lhsIdx
  rw [dif_neg (show ¬(0 : Fin S4000x6.rank) ∈ dot_S4000x6_S6x6_S4000x6_1_0_0_1_n_n.lhsBatch by decide), dif_pos (show (0 : Fin S4000x6.rank) ∈ dot_S4000x6_S6x6_S4000x6_1_0_0_1_n_n.lhsNonContracting by decide)]
  rfl
theorem lhsB_1 (i : S4000x6.Idx) (q : dot_S4000x6_S6x6_S4000x6_1_0_0_1_n_n.contr.Idx) :
    (dot_S4000x6_S6x6_S4000x6_1_0_0_1_n_n.lhsIdx i q 1).val = (q ⟨0, by decide⟩).val :=
  dot_S4000x6_S6x6_S4000x6_1_0_0_1_n_n.lhsIdx_val_of_single rfl i q
theorem rhsB_0 (i : S4000x6.Idx) (q : dot_S4000x6_S6x6_S4000x6_1_0_0_1_n_n.contr.Idx) :
    (dot_S4000x6_S6x6_S4000x6_1_0_0_1_n_n.rhsIdx i q 0).val = (q ⟨0, by decide⟩).val :=
  dot_S4000x6_S6x6_S4000x6_1_0_0_1_n_n.rhsIdx_val_of_single rfl i q
theorem rhsB_1 (i : S4000x6.Idx) (q : dot_S4000x6_S6x6_S4000x6_1_0_0_1_n_n.contr.Idx) :
    (dot_S4000x6_S6x6_S4000x6_1_0_0_1_n_n.rhsIdx i q 1).val = (i 1).val := by
  unfold DotDims.rhsIdx
  rw [dif_neg (show ¬(1 : Fin S6x6.rank) ∈ dot_S4000x6_S6x6_S4000x6_1_0_0_1_n_n.rhsBatch by decide), dif_pos (show (1 : Fin S6x6.rank) ∈ dot_S4000x6_S6x6_S4000x6_1_0_0_1_n_n.rhsNonContracting by decide)]
  rfl

/-- The second product contracts the 6 hidden columns with the 6 rows of Wb. -/
theorem plainB : PlainDot (n := 4000) (k := 6) (m := 6) dot_S4000x6_S6x6_S4000x6_1_0_0_1_n_n where
  rank := rfl
  size := fun _ => rfl
  l0 := lhsB_0
  l1 := fun i q _ => lhsB_1 i q
  r0 := fun i q _ => rhsB_0 i q
  r1 := rhsB_1

/-! ## One block's arithmetic at an entry -/

/-- A bias of 6 entries, cast to one row and repeated down 4000 rows, reads at (p, q) its entry q. -/
theorem bias_at (b : Vec Ideal S6 .f32) (p : Fin 4000) (q : Fin 6) :
    broadcastTo S4000x6 (shapeCast S1x6 b shapeCasts_S6_S1x6) broadcasts_S1x6_S4000x6 (ix2 p q) = b (ix1 q) :=
  (broadcastTo_1b_ab_apply _ broadcasts_S1x6_S4000x6 p q).trans (shapeCast_a_1a_apply b shapeCasts_S6_S1x6 0 q)

/-- What the body stores at entry j of a block: the perceptron of the block's rows, nothing applied after it. -/
theorem pay_at (x0 x1 : Vec Ideal S4000x16 .f32) (w : Vec Ideal S16x6 .f32) (b : Vec Ideal S6 .f32)
    (w' : Vec Ideal S6x6 .f32) (b' : Vec Ideal S6 .f32) (j : S4000x6.Idx) :
    k3_pay1 (F := Ideal) x0 x1 w b w' b' j = Cert.Gine.mlpF id x0 x1 w b w' b' j := by
  obtain ⟨p, q, rfl⟩ : ∃ (p : Fin 4000) (q : Fin 6), j = ix2 p q := ⟨j 0, j 1, eq_ix2 j⟩
  unfold k3_pay1
  simp only [shapeCast_self]
  rw [addf_apply, bias_at]
  refine (congrArg (· + b' (ix1 q)) (matmul_zero_at plainB none _ _ (ix2 p q))).trans ?_
  show rowDot _ _ p q + b' (ix1 q) = rowDot (Cert.Gine.hidF x0 x1 w b) w' p q + b' (ix1 q)
  refine congrArg (· + b' (ix1 q)) ?_
  unfold rowDot
  refine Finset.sum_congr rfl fun κ _ => ?_
  refine congrArg (· * w' (ix2 κ q)) ?_
  show maximumf (F := Ideal) _ _ (ix2 p κ) = _
  rw [maximumf_apply, addf_apply, bias_at, broadcast_apply]
  refine (congrArg (fun s => max (s + b (ix1 κ)) _) (matmul_zero_at plainA none _ _ (ix2 p κ))).trans ?_
  rfl

/-- An entry (p, q) of the perceptron reads row p of the two inputs and nothing else of them: blocks whose row p is row r
    of two arrays, with the same weights and biases, give at (p, q) what the arrays give at (r, q). -/
theorem mlpF_block (x0 x1 : Mat 4000 16) (w : Mat 16 6) (b : Cert.Gine.Row 6) (w' : Mat 6 6) (b' : Cert.Gine.Row 6)
    (X A : Mat 100000 16) (Wa : Mat 16 6) (ba : Cert.Gine.Row 6) (Wb : Mat 6 6) (bb : Cert.Gine.Row 6)
    (j : S4000x6.Idx) (i : S100000x6.Idx)
    (hw : w = Wa) (hb : b = ba) (hw' : w' = Wb) (hb' : b' = bb)
    (h0 : ∀ l : Fin 16, x0 (ix2 (j 0) l) = X (ix2 (i 0) l)) (h1 : ∀ l : Fin 16, x1 (ix2 (j 0) l) = A (ix2 (i 0) l))
    (hq : (j 1).val = (i 1).val) :
    Cert.Gine.mlpF id x0 x1 w b w' b' j = Cert.Gine.mlpF id X A Wa ba Wb bb i := by
  subst hw hb hw' hb'
  have hq' : j 1 = i 1 := Fin.ext hq
  show rowDot (Cert.Gine.hidF x0 x1 w b) w' (j 0) (j 1) + b' (ix1 (j 1))
    = rowDot (Cert.Gine.hidF X A w b) w' (i 0) (i 1) + b' (ix1 (i 1))
  rw [hq']
  refine congrArg (· + b' (ix1 (i 1))) ?_
  unfold rowDot
  refine Finset.sum_congr rfl fun κ _ => ?_
  refine congrArg (· * w' (ix2 κ (i 1))) ?_
  show Cert.Gine.relu0 (rowDot (fun y => x0 y + x1 y) w (j 0) κ + b (ix1 κ))
    = Cert.Gine.relu0 (rowDot (fun y => X y + A y) w (i 0) κ + b (ix1 κ))
  refine congrArg (fun s => Cert.Gine.relu0 (s + b (ix1 κ))) ?_
  unfold rowDot
  refine Finset.sum_congr rfl fun l _ => ?_
  show (x0 (ix2 (j 0) l) + x1 (ix2 (j 0) l)) * w (ix2 l κ) = (X (ix2 (i 0) l) + A (ix2 (i 0) l)) * w (ix2 l κ)
  rw [h0, h1]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the 25 points: the two row-blocked inputs and the output sit at block (t, 0); the weights and
    biases at block 0 of arrays that are one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row p of the node features' block at point t is row 4000·t + p of the array. -/
theorem blk0_row (c : Dev nD) (t : Fin cfg3.N) (p : Fin 4000) (r : Fin 100000) (l : Fin 16) (hr : r.val = 4000 * t.val + p.val) :
    (iblk3 V c 0 t : Vec Ideal S4000x16 .f32) (ix2 p l) = (V c main_v15 : S100000x16.Idx → EReal) (ix2 r l) := by
  obtain ⟨e0, e1, -⟩ := idx_facts t
  show V c main_v15 (((cfg3.win 0).blk t).view.emb (ix2 p l)) = V c main_v15 (ix2 r l)
  have e : ((cfg3.win 0).blk t).view.emb (ix2 p l) = ix2 r l := by
    funext a; apply Fin.ext
    match a with
    | ⟨0, _⟩ => show win3_0.index t (0 : Fin 2) * 4000 + 1 * p.val = r.val; omega
    | ⟨1, _⟩ => show win3_0.index t (1 : Fin 2) * 16 + 1 * l.val = l.val; omega
  rw [e]

/-- Row p of the aggregated messages' block at point t is row 4000·t + p of the array. -/
theorem blk1_row (c : Dev nD) (t : Fin cfg3.N) (p : Fin 4000) (r : Fin 100000) (l : Fin 16) (hr : r.val = 4000 * t.val + p.val) :
    (iblk3 V c 1 t : Vec Ideal S4000x16 .f32) (ix2 p l) = (V c main_v26 : S100000x16.Idx → EReal) (ix2 r l) := by
  obtain ⟨-, -, e0, e1, -⟩ := idx_facts t
  show V c main_v26 (((cfg3.win 1).blk t).view.emb (ix2 p l)) = V c main_v26 (ix2 r l)
  have e : ((cfg3.win 1).blk t).view.emb (ix2 p l) = ix2 r l := by
    funext a; apply Fin.ext
    match a with
    | ⟨0, _⟩ => show win3_1.index t (0 : Fin 2) * 4000 + 1 * p.val = r.val; omega
    | ⟨1, _⟩ => show win3_1.index t (1 : Fin 2) * 16 + 1 * l.val = l.val; omega
  rw [e]

/-- Wa's block is Wa at every point. -/
theorem blk2_eq (c : Dev nD) (t : Fin cfg3.N) : (iblk3 V c 2 t : Vec Ideal S16x6 .f32) = V c main_arg8 := by
  obtain ⟨-, -, -, -, e0, e1, -⟩ := idx_facts t
  funext y
  show V c main_arg8 (((cfg3.win 2).blk t).view.emb y) = V c main_arg8 y
  have e : ((cfg3.win 2).blk t).view.emb y = y := by
    funext a; apply Fin.ext
    match a with
    | ⟨0, _⟩ => show win3_2.index t (0 : Fin 2) * 16 + 1 * (y 0).val = (y 0).val; omega
    | ⟨1, _⟩ => show win3_2.index t (1 : Fin 2) * 6 + 1 * (y 1).val = (y 1).val; omega
  rw [e]

/-- ba's block is ba at every point. -/
theorem blk3_eq (c : Dev nD) (t : Fin cfg3.N) : (iblk3 V c 3 t : Vec Ideal S6 .f32) = V c main_arg9 := by
  obtain ⟨-, -, -, -, -, -, e0, -⟩ := idx_facts t
  funext y
  show V c main_arg9 (((cfg3.win 3).blk t).view.emb y) = V c main_arg9 y
  have e : ((cfg3.win 3).blk t).view.emb y = y := by
    funext a; apply Fin.ext
    match a with
    | ⟨0, _⟩ => show win3_3.index t (0 : Fin 1) * 6 + 1 * (y 0).val = (y 0).val; omega
  rw [e]

/-- Wb's block is Wb at every point. -/
theorem blk4_eq (c : Dev nD) (t : Fin cfg3.N) : (iblk3 V c 4 t : Vec Ideal S6x6 .f32) = V c main_arg10 := by
  obtain ⟨-, -, -, -, -, -, -, e0, e1, -⟩ := idx_facts t
  funext y
  show V c main_arg10 (((cfg3.win 4).blk t).view.emb y) = V c main_arg10 y
  have e : ((cfg3.win 4).blk t).view.emb y = y := by
    funext a; apply Fin.ext
    match a with
    | ⟨0, _⟩ => show win3_4.index t (0 : Fin 2) * 6 + 1 * (y 0).val = (y 0).val; omega
    | ⟨1, _⟩ => show win3_4.index t (1 : Fin 2) * 6 + 1 * (y 1).val = (y 1).val; omega
  rw [e]

/-- bb's block is bb at every point. -/
theorem blk5_eq (c : Dev nD) (t : Fin cfg3.N) : (iblk3 V c 5 t : Vec Ideal S6 .f32) = V c main_arg11 := by
  obtain ⟨-, -, -, -, -, -, -, -, -, e0, -⟩ := idx_facts t
  funext y
  show V c main_arg11 (((cfg3.win 5).blk t).view.emb y) = V c main_arg11 y
  have e : ((cfg3.win 5).blk t).view.emb y = y := by
    funext a; apply Fin.ext
    match a with
    | ⟨0, _⟩ => show win3_5.index t (0 : Fin 1) * 6 + 1 * (y 0).val = (y 0).val; omega
  rw [e]

/-- Entry (p, q) of the output's block at point t is entry (4000·t + p, q) of the array. -/
theorem out_emb (t : Fin cfg3.N) (j : S4000x6.Idx) :
    ((((cfg3.win 6).blk t).view.emb j) 0).val = 4000 * t.val + (j 0).val
    ∧ ((((cfg3.win 6).blk t).view.emb j) 1).val = (j 1).val := by
  obtain ⟨-, -, -, -, -, -, -, -, -, -, e0, e1⟩ := idx_facts t
  constructor
  · show win3_6.index t (0 : Fin 2) * 4000 + 1 * (j 0).val = 4000 * t.val + (j 0).val; omega
  · show win3_6.index t (1 : Fin 2) * 6 + 1 * (j 1).val = (j 1).val; omega

/-- What point t writes back is block t of the perceptron of the whole arrays. -/
theorem flushed_eq (c : Dev nD) (t : Fin cfg3.N) :
    (dat3 (F := Ideal) V c).flushed 6 t = ((cfg3.win 6).blk t).view.read (Elt Ideal)
      (Cert.Gine.mlpF id (V c main_v15) (V c main_v26) (V c main_arg8) (V c main_arg9) (V c main_arg10) (V c main_arg11)) := by
  show (cfg3.win 6).cut (grid3.coords t) ((dat3 V c).after 6 t) = _
  rw [after3_6]
  unfold out3_6
  rw [View.canon_unit_zero hz2]
  simp only [View.ld_unit_zero (S := S4000x16) hz2, View.ld_unit_zero (S := S16x6) hz2, View.ld_unit_zero (S := S6) hz1,
    View.ld_unit_zero (S := S6x6) hz2]
  funext j
  show k3_pay1 (F := Ideal) (iblk3 V c 0 t) (iblk3 V c 1 t) (iblk3 V c 2 t) (iblk3 V c 3 t) (iblk3 V c 4 t) (iblk3 V c 5 t) j
    = Cert.Gine.mlpF id (V c main_v15) (V c main_v26) (V c main_arg8) (V c main_arg9) (V c main_arg10) (V c main_arg11)
        (((cfg3.win 6).blk t).view.emb j)
  obtain ⟨h0, h1⟩ := out_emb t j
  exact (pay_at (iblk3 V c 0 t) (iblk3 V c 1 t) (iblk3 V c 2 t) (iblk3 V c 3 t) (iblk3 V c 4 t) (iblk3 V c 5 t) j).trans
    (mlpF_block (iblk3 V c 0 t) (iblk3 V c 1 t) (iblk3 V c 2 t) (iblk3 V c 3 t) (iblk3 V c 4 t) (iblk3 V c 5 t)
      (V c main_v15) (V c main_v26) (V c main_arg8) (V c main_arg9) (V c main_arg10) (V c main_arg11)
      j (((cfg3.win 6).blk t).view.emb j)
      (blk2_eq V c t) (blk3_eq V c t) (blk4_eq V c t) (blk5_eq V c t)
      (fun l => blk0_row V c t (j 0) ((((cfg3.win 6).blk t).view.emb j) 0) l h0)
      (fun l => blk1_row V c t (j 0) ((((cfg3.win 6).blk t).view.emb j) 0) l h0) h1.symm)

/-- An index of the output array is in point t's block iff each coordinate is in the block's range on its axis. -/
theorem mem_blk (t : Fin cfg3.N) (i : S100000x6.Idx) :
    i ∈ ((cfg3.win 6).blk t).view.set ↔ ∀ a : Fin 2, win3_6.index t a * S4000x6.size a ≤ (i a).val ∧ (i a).val < win3_6.index t a * S4000x6.size a + S4000x6.size a := by
  show i ∈ ((View.whole main_v27).slice (win3_6.rect t)).set ↔ _
  rw [View.set_slice_whole, Rect.mem_set_unit]
  exact Iff.rfl

/-- The 25 blocks of 4000 rows fill the 100000 rows: row r lies in the block of point r / 4000. -/
theorem cover (i : S100000x6.Idx) : ∃ t : Fin cfg3.N, (cfg3.win 6).flush t = true ∧ i ∈ ((cfg3.win 6).blk t).view.set := by
  have hi0 : (i 0).val < 100000 := (i 0).isLt
  have hi1 : (i 1).val < 6 := (i 1).isLt
  have hN : cfg3.N = 25 := N_3
  obtain ⟨t, ht⟩ : ∃ t : Fin cfg3.N, t.val = (i 0).val / 4000 := ⟨⟨(i 0).val / 4000, by omega⟩, rfl⟩
  obtain ⟨-, -, -, -, -, -, -, -, -, -, e0, e1⟩ := idx_facts t
  refine ⟨t, flush3_6 t, ?_⟩
  rw [mem_blk]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 6 ≤ (i 1).val ∧ (i 1).val < win3_6.index t (1 : Fin 2) * 6 + 6; omega

/-- The output array after the region: the perceptron of the arrays the region found, with nothing applied after the
    second product. -/
theorem arr3 (c : Dev nD) : (Gen.dat3 (F := Ideal) V c).arrAt 6 cfg3.N
    = Cert.Gine.mlpF id (V c main_v15) (V c main_v26) (V c main_arg8) (V c main_arg9) (V c main_arg10) (V c main_arg11) :=
  (dat3 (F := Ideal) V c).arrAt_eq_of_cover 6 _ (fun t _ => flushed_eq V c t) cover

end Cert.KernelIdeal.Val3

end
-- ==== Proof.RefSide.lean ====
/-
  The reference program's four float stages, read index by index, are the specification's functions.

  Each graph layer has two such stages. An edge message is relu (g + e), where g is the gathered row of the node features
  and e the edge's own features: the program adds the two arrays and takes the maximum with a broadcast zero. A node's
  new features are the perceptron of x + aggr: a product with the first weight matrix, a broadcast bias, relu, a product
  with the second weight matrix, a broadcast bias, and the layer's outer activation (relu after the first layer, nothing
  after the second). A product's entry (p, q) is the sum over the contracted axis of row p against column q; a bias
  broadcast from [m] through [1, m] to [n, m] is read at the column q. The gathered rows and the aggregated messages are
  kept as the values they are: which rows they read or sum plays no part here.
-/
import proofs.«155975_j53807350284451_1_alg».proof.Proof.Gen.ReferenceIdeal.Read
import proofs.«155975_j53807350284451_1_alg».proof.Proof.Spec
import proofs.«155975_j53807350284451_1_alg».proof.Proof.LibSageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Cert.ReferenceIdeal Cert.ReferenceIdeal.Read Idealize.ShloMosaic Idealize.ShloMosaic.ValueIdx

variable (x0 : (⟨S100000x16, .f32⟩ : BufTy).Contents (Elt Ideal)) (x1 : (⟨S2x6400000, .i32⟩ : BufTy).Contents (Elt Ideal))
  (x2 : (⟨S6400000x16, .f32⟩ : BufTy).Contents (Elt Ideal))
  (x4 : (⟨S16x16, .f32⟩ : BufTy).Contents (Elt Ideal)) (x5 : (⟨S16, .f32⟩ : BufTy).Contents (Elt Ideal))
  (x6 : (⟨S16x16, .f32⟩ : BufTy).Contents (Elt Ideal)) (x7 : (⟨S16, .f32⟩ : BufTy).Contents (Elt Ideal))
  (x8 : (⟨S16x6, .f32⟩ : BufTy).Contents (Elt Ideal)) (x9 : (⟨S6, .f32⟩ : BufTy).Contents (Elt Ideal))
  (x10 : (⟨S6x6, .f32⟩ : BufTy).Contents (Elt Ideal)) (x11 : (⟨S6, .f32⟩ : BufTy).Contents (Elt Ideal))

/-- The first layer's messages: the gathered rows plus the edge features, through relu. -/
theorem msg1_eq : val_main_v12 (F := Ideal) x0 x1 x2 = Cert.Gine.msgF (val_main_v10 (F := Ideal) x0 x1) x2 := by
  funext i
  rw [val_main_v12_apply, val_main_v11_apply, val_main_call0_v0_apply, val_main_call0_cst_apply]
  rfl

/-- A product's left operand is read at (row of the result, contracted coordinate). -/
theorem lidx_eq {n k m : Nat} (i : (⟨2, ![n, m]⟩ : Shape).Idx) (κ : Fin k)
    (l : (⟨2, ![n, k]⟩ : Shape).Idx) (h0 : (l 0).val = (i 0).val) (h1 : (l 1).val = κ.val) : l = ix2 (i 0) κ :=
  funext fun a => Fin.ext (by
    match a with
    | ⟨0, _⟩ => exact h0
    | ⟨1, _⟩ => exact h1)

/-- A product's right operand is read at (contracted coordinate, column of the result). -/
theorem ridx_eq {n k m : Nat} (i : (⟨2, ![n, m]⟩ : Shape).Idx) (κ : Fin k)
    (r : (⟨2, ![k, m]⟩ : Shape).Idx) (h0 : (r 0).val = κ.val) (h1 : (r 1).val = (i 1).val) : r = ix2 κ (i 1) :=
  funext fun a => Fin.ext (by
    match a with
    | ⟨0, _⟩ => exact h0
    | ⟨1, _⟩ => exact h1)

/-- The first layer's hidden activations: relu ((x + aggr) · Wa + ba). -/
theorem hid1_eq : val_main_v21 (F := Ideal) x0 x1 x2 x4 x5
    = Cert.Gine.hidF x0 (val_main_v15 (F := Ideal) x0 x1 x2) x4 x5 := by
  funext i
  rw [val_main_v21_apply, val_main_v20_apply, val_main_v17_apply, val_main_v19_apply, val_main_v18_apply,
    val_main_call1_v0_apply, val_main_call1_cst_apply]
  have el : ∀ κ : Fin 16, lidx_main_v17 i κ = ix2 (i 0) κ := fun κ => lidx_eq i κ _ rfl rfl
  have er : ∀ κ : Fin 16, ridx_main_v17 i κ = ix2 κ (i 1) := fun κ => ridx_eq i κ _ rfl rfl
  have eb : idx_main_v18 (idx_main_v19 i) = ix1 (i 1) := funext fun a => Fin.ext (by
    match a with
    | ⟨0, _⟩ => rfl)
  simp only [el, er, eb, val_main_v16_apply]
  rfl

/-- The first layer's output: relu (hidden · Wb + bb). -/
theorem h1_eq : val_main_v26 (F := Ideal) x0 x1 x2 x4 x5 x6 x7
    = Cert.Gine.mlpF Cert.Gine.relu0 x0 (val_main_v15 (F := Ideal) x0 x1 x2) x4 x5 x6 x7 := by
  funext i
  rw [val_main_v26_apply, val_main_v25_apply, val_main_v22_apply, val_main_v24_apply, val_main_v23_apply,
    val_main_call2_v0_apply, val_main_call2_cst_apply, hid1_eq]
  have el : ∀ κ : Fin 16, lidx_main_v22 i κ = ix2 (i 0) κ := fun κ => lidx_eq i κ _ rfl rfl
  have er : ∀ κ : Fin 16, ridx_main_v22 i κ = ix2 κ (i 1) := fun κ => ridx_eq i κ _ rfl rfl
  have eb : idx_main_v23 (idx_main_v24 i) = ix1 (i 1) := funext fun a => Fin.ext (by
    match a with
    | ⟨0, _⟩ => rfl)
  simp only [el, er, eb]
  rfl

/-- The second layer's messages: the gathered rows of the first layer's output plus the edge features, through relu. -/
theorem msg2_eq : val_main_v39 (F := Ideal) x0 x1 x2 x4 x5 x6 x7
    = Cert.Gine.msgF (val_main_v37 (F := Ideal) x0 x1 x2 x4 x5 x6 x7) x2 := by
  funext i
  rw [val_main_v39_apply, val_main_v38_apply, val_main_call3_v0_apply, val_main_call3_cst_apply]
  rfl

/-- The second layer's hidden activations: relu ((h + aggr) · Wa + ba), h the first layer's output. -/
theorem hid2_eq : val_main_v48 (F := Ideal) x0 x1 x2 x4 x5 x6 x7 x8 x9
    = Cert.Gine.hidF (val_main_v26 (F := Ideal) x0 x1 x2 x4 x5 x6 x7) (val_main_v42 (F := Ideal) x0 x1 x2 x4 x5 x6 x7) x8 x9 := by
  funext i
  rw [val_main_v48_apply, val_main_v47_apply, val_main_v44_apply, val_main_v46_apply, val_main_v45_apply,
    val_main_call4_v0_apply, val_main_call4_cst_apply]
  have el : ∀ κ : Fin 16, lidx_main_v44 i κ = ix2 (i 0) κ := fun κ => lidx_eq i κ _ rfl rfl
  have er : ∀ κ : Fin 16, ridx_main_v44 i κ = ix2 κ (i 1) := fun κ => ridx_eq i κ _ rfl rfl
  have eb : idx_main_v45 (idx_main_v46 i) = ix1 (i 1) := funext fun a => Fin.ext (by
    match a with
    | ⟨0, _⟩ => rfl)
  simp only [el, er, eb, val_main_v43_apply]
  rfl

/-- The second layer's output: hidden · Wb + bb, with no outer activation. -/
theorem h2_eq : val_main_v52 (F := Ideal) x0 x1 x2 x4 x5 x6 x7 x8 x9 x10 x11
    = Cert.Gine.mlpF id (val_main_v26 (F := Ideal) x0 x1 x2 x4 x5 x6 x7) (val_main_v42 (F := Ideal) x0 x1 x2 x4 x5 x6 x7)
        x8 x9 x10 x11 := by
  funext i
  rw [val_main_v52_apply, val_main_v49_apply, val_main_v51_apply, val_main_v50_apply, hid2_eq]
  have el : ∀ κ : Fin 6, lidx_main_v49 i κ = ix2 (i 0) κ := fun κ => lidx_eq i κ _ rfl rfl
  have er : ∀ κ : Fin 6, ridx_main_v49 i κ = ix2 κ (i 1) := fun κ => ridx_eq i κ _ rfl rfl
  have eb : idx_main_v50 (idx_main_v51 i) = ix1 (i 1) := funext fun a => Fin.ext (by
    match a with
    | ⟨0, _⟩ => rfl)
  simp only [el, er, eb]
  rfl

end Cert.ReferenceIdeal.RefVal

end
-- ==== Proof.KCarry.lean ====
import proofs.«155975_j53807350284451_1_alg».proof.Proof.Gen.KernelIdeal.Frame
import Idealize.ShloMosaic.Lib.StableHlo.Run
import Idealize.ShloMosaic.Lib.Pipeline.Value

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A buffer that no operation of a host stretch writes keeps its contents across the stretch. -/
local macro "host_keeps" ops:ident : term => `(StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem W1_arg2 : W1 m ρ c (Proc.devRef .tc main_arg2) = m ((c : Thread nD τ).loc main_arg2) :=
  calc W1 m ρ c (Proc.devRef .tc main_arg2)
    _ = m ((c : Thread nD τ).loc main_arg2) := host_keeps hostOps0

theorem W2_v3 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W3_arg0 : W3 m ρ c (Proc.devRef .tc main_arg0) = m ((c : Thread nD τ).loc main_arg0) :=
  calc W3 m ρ c (Proc.devRef .tc main_arg0)
    _ = W2 m ρ c (Proc.devRef .tc main_arg0) := host_keeps hostOps1
    _ = W1 m ρ c (Proc.devRef .tc main_arg0) := W2_of_ne m ρ c main_arg0 (by decide)
    _ = m ((c : Thread nD τ).loc main_arg0) := host_keeps hostOps0

theorem W3_arg4 : W3 m ρ c (Proc.devRef .tc main_arg4) = m ((c : Thread nD τ).loc main_arg4) :=
  calc W3 m ρ c (Proc.devRef .tc main_arg4)
    _ = W2 m ρ c (Proc.devRef .tc main_arg4) := host_keeps hostOps1
    _ = W1 m ρ c (Proc.devRef .tc main_arg4) := W2_of_ne m ρ c main_arg4 (by decide)
    _ = m ((c : Thread nD τ).loc main_arg4) := host_keeps hostOps0

theorem W3_arg5 : W3 m ρ c (Proc.devRef .tc main_arg5) = m ((c : Thread nD τ).loc main_arg5) :=
  calc W3 m ρ c (Proc.devRef .tc main_arg5)
    _ = W2 m ρ c (Proc.devRef .tc main_arg5) := host_keeps hostOps1
    _ = W1 m ρ c (Proc.devRef .tc main_arg5) := W2_of_ne m ρ c main_arg5 (by decide)
    _ = m ((c : Thread nD τ).loc main_arg5) := host_keeps hostOps0

theorem W3_arg6 : W3 m ρ c (Proc.devRef .tc main_arg6) = m ((c : Thread nD τ).loc main_arg6) :=
  calc W3 m ρ c (Proc.devRef .tc main_arg6)
    _ = W2 m ρ c (Proc.devRef .tc main_arg6) := host_keeps hostOps1
    _ = W1 m ρ c (Proc.devRef .tc main_arg6) := W2_of_ne m ρ c main_arg6 (by decide)
    _ = m ((c : Thread nD τ).loc main_arg6) := host_keeps hostOps0

theorem W3_arg7 : W3 m ρ c (Proc.devRef .tc main_arg7) = m ((c : Thread nD τ).loc main_arg7) :=
  calc W3 m ρ c (Proc.devRef .tc main_arg7)
    _ = W2 m ρ c (Proc.devRef .tc main_arg7) := host_keeps hostOps1
    _ = W1 m ρ c (Proc.devRef .tc main_arg7) := W2_of_ne m ρ c main_arg7 (by decide)
    _ = m ((c : Thread nD τ).loc main_arg7) := host_keeps hostOps0

theorem W4_v1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := host_keeps hostOps1
    _ = W1 m ρ c (Proc.devRef .tc main_v1) := W2_of_ne m ρ c main_v1 (by decide)

theorem W5_arg2 : W5 m ρ c (Proc.devRef .tc main_arg2) = m ((c : Thread nD τ).loc main_arg2) :=
  calc W5 m ρ c (Proc.devRef .tc main_arg2)
    _ = W4 m ρ c (Proc.devRef .tc main_arg2) := host_keeps hostOps2
    _ = W3 m ρ c (Proc.devRef .tc main_arg2) := W4_of_ne m ρ c main_arg2 (by decide)
    _ = W2 m ρ c (Proc.devRef .tc main_arg2) := host_keeps hostOps1
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := host_keeps hostOps0

theorem W6_v3 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := host_keeps hostOps2
    _ = W3 m ρ c (Proc.devRef .tc main_v3) := W4_of_ne m ρ c main_v3 (by decide)
    _ = W2 m ρ c (Proc.devRef .tc main_v3) := host_keeps hostOps1
    _ = W1 m ρ c (Proc.devRef .tc main_v3) := W2_of_ne m ρ c main_v3 (by decide)

theorem W7_v15 : W7 m ρ c (Proc.devRef .tc main_v15) = W4 m ρ c (Proc.devRef .tc main_v15) :=
  calc W7 m ρ c (Proc.devRef .tc main_v15)
    _ = W6 m ρ c (Proc.devRef .tc main_v15) := host_keeps hostOps3
    _ = W5 m ρ c (Proc.devRef .tc main_v15) := W6_of_ne m ρ c main_v15 (by decide)
    _ = W4 m ρ c (Proc.devRef .tc main_v15) := host_keeps hostOps2

theorem W7_arg8 : W7 m ρ c (Proc.devRef .tc main_arg8) = m ((c : Thread nD τ).loc main_arg8) :=
  calc W7 m ρ c (Proc.devRef .tc main_arg8)
    _ = W6 m ρ c (Proc.devRef .tc main_arg8) := host_keeps hostOps3
    _ = W5 m ρ c (Proc.devRef .tc main_arg8) := W6_of_ne m ρ c main_arg8 (by decide)
    _ = W4 m ρ c (Proc.devRef .tc main_arg8) := host_keeps hostOps2
    _ = W3 m ρ c (Proc.devRef .tc main_arg8) := W4_of_ne m ρ c main_arg8 (by decide)
    _ = W2 m ρ c (Proc.devRef .tc main_arg8) := host_keeps hostOps1
    _ = W1 m ρ c (Proc.devRef .tc main_arg8) := W2_of_ne m ρ c main_arg8 (by decide)
    _ = m ((c : Thread nD τ).loc main_arg8) := host_keeps hostOps0

theorem W7_arg9 : W7 m ρ c (Proc.devRef .tc main_arg9) = m ((c : Thread nD τ).loc main_arg9) :=
  calc W7 m ρ c (Proc.devRef .tc main_arg9)
    _ = W6 m ρ c (Proc.devRef .tc main_arg9) := host_keeps hostOps3
    _ = W5 m ρ c (Proc.devRef .tc main_arg9) := W6_of_ne m ρ c main_arg9 (by decide)
    _ = W4 m ρ c (Proc.devRef .tc main_arg9) := host_keeps hostOps2
    _ = W3 m ρ c (Proc.devRef .tc main_arg9) := W4_of_ne m ρ c main_arg9 (by decide)
    _ = W2 m ρ c (Proc.devRef .tc main_arg9) := host_keeps hostOps1
    _ = W1 m ρ c (Proc.devRef .tc main_arg9) := W2_of_ne m ρ c main_arg9 (by decide)
    _ = m ((c : Thread nD τ).loc main_arg9) := host_keeps hostOps0

theorem W7_arg10 : W7 m ρ c (Proc.devRef .tc main_arg10) = m ((c : Thread nD τ).loc main_arg10) :=
  calc W7 m ρ c (Proc.devRef .tc main_arg10)
    _ = W6 m ρ c (Proc.devRef .tc main_arg10) := host_keeps hostOps3
    _ = W5 m ρ c (Proc.devRef .tc main_arg10) := W6_of_ne m ρ c main_arg10 (by decide)
    _ = W4 m ρ c (Proc.devRef .tc main_arg10) := host_keeps hostOps2
    _ = W3 m ρ c (Proc.devRef .tc main_arg10) := W4_of_ne m ρ c main_arg10 (by decide)
    _ = W2 m ρ c (Proc.devRef .tc main_arg10) := host_keeps hostOps1
    _ = W1 m ρ c (Proc.devRef .tc main_arg10) := W2_of_ne m ρ c main_arg10 (by decide)
    _ = m ((c : Thread nD τ).loc main_arg10) := host_keeps hostOps0

theorem W7_arg11 : W7 m ρ c (Proc.devRef .tc main_arg11) = m ((c : Thread nD τ).loc main_arg11) :=
  calc W7 m ρ c (Proc.devRef .tc main_arg11)
    _ = W6 m ρ c (Proc.devRef .tc main_arg11) := host_keeps hostOps3
    _ = W5 m ρ c (Proc.devRef .tc main_arg11) := W6_of_ne m ρ c main_arg11 (by decide)
    _ = W4 m ρ c (Proc.devRef .tc main_arg11) := host_keeps hostOps2
    _ = W3 m ρ c (Proc.devRef .tc main_arg11) := W4_of_ne m ρ c main_arg11 (by decide)
    _ = W2 m ρ c (Proc.devRef .tc main_arg11) := host_keeps hostOps1
    _ = W1 m ρ c (Proc.devRef .tc main_arg11) := W2_of_ne m ρ c main_arg11 (by decide)
    _ = m ((c : Thread nD τ).loc main_arg11) := host_keeps hostOps0

theorem W8_arg3 : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := host_keeps hostOps3
    _ = W5 m ρ c (Proc.devRef .tc main_arg3) := W6_of_ne m ρ c main_arg3 (by decide)
    _ = W4 m ρ c (Proc.devRef .tc main_arg3) := host_keeps hostOps2
    _ = W3 m ρ c (Proc.devRef .tc main_arg3) := W4_of_ne m ρ c main_arg3 (by decide)
    _ = W2 m ρ c (Proc.devRef .tc main_arg3) := host_keeps hostOps1
    _ = W1 m ρ c (Proc.devRef .tc main_arg3) := W2_of_ne m ρ c main_arg3 (by decide)
    _ = m ((c : Thread nD τ).loc main_arg3) := host_keeps hostOps0

end Cert.KernelIdeal.Carry

end
-- ==== Proof.KFold.lean ====
/-
  The idealized kernel's result, read back through its @main, is the reference's result as a function of the arguments.

  @main alternates stretches of host operations with four kernel regions. Walking from the launch memory to the return:
  the first stretch slices the edge list into sources and targets and gathers the sources' rows; the first region turns
  the gathered rows and the edge attributes into messages; a stretch scatter-adds the messages onto their targets; the
  second region applies the perceptron to the nodes plus their aggregated messages; the same four steps repeat on the
  new node features; the last stretches pool the nodes by graph and take a log-softmax. Each region's output array is
  the specification's function of its input arrays, and so is the matching run of operations in the reference; the host
  operations in between (slices, index wrapping, gathers, scatter-adds, the pooling and the log-softmax) are the same
  operations in both programs, applied to equal operands, and are never opened.
-/
import proofs.«155975_j53807350284451_1_alg».proof.Proof.Gen.KernelIdeal.Frame
import proofs.«155975_j53807350284451_1_alg».proof.Proof.Gen.ReferenceIdeal.Read
import proofs.«155975_j53807350284451_1_alg».proof.Proof.Spec
import proofs.«155975_j53807350284451_1_alg».proof.Proof.KEdge
import proofs.«155975_j53807350284451_1_alg».proof.Proof.KMlp1
import proofs.«155975_j53807350284451_1_alg».proof.Proof.KMlp3
import proofs.«155975_j53807350284451_1_alg».proof.Proof.RefSide
import proofs.«155975_j53807350284451_1_alg».proof.Proof.KCarry
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## After the first host stretch: the sources, the targets, the gathered rows -/

theorem W1_v1 : W1 m ρ c (Proc.devRef .tc main_v1) = val_main_v1 (F := Ideal) (m ((c : Thread nD τ).loc main_arg1)) := by
  show StableHlo.after hostOps0 (W0 m ρ c) (Proc.devRef .tc main_v1) = _
  after_results; rfl

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results; rfl

theorem W1_v10 : W1 m ρ c (Proc.devRef .tc main_v10) = val_main_v10 (F := Ideal) (m ((c : Thread nD τ).loc main_arg0)) (m ((c : Thread nD τ).loc main_arg1)) := by
  show StableHlo.after hostOps0 (W0 m ρ c) (Proc.devRef .tc main_v10) = _
  after_results; rfl

/-! ## The first messages, and their sum at each target -/

theorem W2_v11 : W2 m ρ c (Proc.devRef .tc main_v11) = val_main_v12 (F := Ideal) (m ((c : Thread nD τ).loc main_arg0)) (m ((c : Thread nD τ).loc main_arg1)) (m ((c : Thread nD τ).loc main_arg2)) := by
  refine (W2_arr m ρ c 2).trans ((Cert.KernelIdeal.Val.arr0 (V1 m ρ) c).trans ?_)
  rw [show V1 m ρ c main_v10 = _ from W1_v10 m ρ c, show V1 m ρ c main_arg2 = _ from Carry.W1_arg2 m ρ c]
  exact (Cert.ReferenceIdeal.RefVal.msg1_eq _ _ _).symm

theorem W3_v14 : W3 m ρ c (Proc.devRef .tc main_v14) = val_main_v15 (F := Ideal) (m ((c : Thread nD τ).loc main_arg0)) (m ((c : Thread nD τ).loc main_arg1)) (m ((c : Thread nD τ).loc main_arg2)) := by
  show StableHlo.after hostOps1 (W2 m ρ c) (Proc.devRef .tc main_v14) = _
  after_results
  rw [(Carry.W2_v3 m ρ c).trans (W1_v3 m ρ c), W2_v11 m ρ c]
  rfl

/-! ## The first perceptron -/

theorem W4_v15 : W4 m ρ c (Proc.devRef .tc main_v15) = val_main_v26 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W4_arr m ρ c 6).trans ((Cert.KernelIdeal.Val1.arr1 (V3 m ρ) c).trans ?_)
  rw [show V3 m ρ c main_arg0 = _ from Carry.W3_arg0 m ρ c, show V3 m ρ c main_v14 = _ from W3_v14 m ρ c,
    show V3 m ρ c main_arg4 = _ from Carry.W3_arg4 m ρ c, show V3 m ρ c main_arg5 = _ from Carry.W3_arg5 m ρ c,
    show V3 m ρ c main_arg6 = _ from Carry.W3_arg6 m ρ c, show V3 m ρ c main_arg7 = _ from Carry.W3_arg7 m ρ c]
  exact (Cert.ReferenceIdeal.RefVal.h1_eq _ _ _ _ _ _ _).symm

/-! ## The second round: the new features gathered, the messages, their sum -/

theorem W5_v22 : W5 m ρ c (Proc.devRef .tc main_v22) = val_main_v37 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v22) = _
  after_results
  rw [(Carry.W4_v1 m ρ c).trans (W1_v1 m ρ c), W4_v15 m ρ c]
  rfl

theorem W6_v23 : W6 m ρ c (Proc.devRef .tc main_v23) = val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W6_arr m ρ c 2).trans ((Cert.KernelIdeal.Val.arr2 (V5 m ρ) c).trans ?_)
  rw [show V5 m ρ c main_v22 = _ from W5_v22 m ρ c, show V5 m ρ c main_arg2 = _ from Carry.W5_arg2 m ρ c]
  exact (Cert.ReferenceIdeal.RefVal.msg2_eq _ _ _ _ _ _ _).symm

theorem W7_v26 : W7 m ρ c (Proc.devRef .tc main_v26) = val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v26) = _
  after_results
  rw [(Carry.W6_v3 m ρ c).trans (W1_v3 m ρ c), W6_v23 m ρ c]
  rfl

/-! ## The second perceptron, the pooling and the log-softmax -/

theorem W8_v27 : W8 m ρ c (Proc.devRef .tc main_v27) = val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 6).trans ((Cert.KernelIdeal.Val3.arr3 (V7 m ρ) c).trans ?_)
  rw [show V7 m ρ c main_v15 = _ from (Carry.W7_v15 m ρ c).trans (W4_v15 m ρ c), show V7 m ρ c main_v26 = _ from W7_v26 m ρ c,
    show V7 m ρ c main_arg8 = _ from Carry.W7_arg8 m ρ c, show V7 m ρ c main_arg9 = _ from Carry.W7_arg9 m ρ c,
    show V7 m ρ c main_arg10 = _ from Carry.W7_arg10 m ρ c, show V7 m ρ c main_arg11 = _ from Carry.W7_arg11 m ρ c]
  exact (Cert.ReferenceIdeal.RefVal.h2_eq _ _ _ _ _ _ _ _ _ _ _).symm

/-- The result buffer at the return is the reference's last stage of the arguments. -/
theorem result_eq : W10 m ρ c (Proc.devRef .tc main_v40) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4_1 (StableHlo.after hostOps4 (W8 m ρ c)) (Proc.devRef .tc main_v40) = _
  after_results_simp
  rw [W8_v27 m ρ c, Carry.W8_arg3 m ρ c]
  rfl

end Cert.KernelIdeal.Fold

end
-- ==== Proof.lean ====
/-
  Two GINE message-passing layers, a mean pool over graphs and a log-softmax: the Pallas kernel against its jnp reference,
  over the extended reals.

  Both programs compute, for each of the two layers, the messages relu(x[src] + e) along the edges, their sum at each
  target node, and a two-layer perceptron of the node's features plus that sum (with a relu after the first layer of the
  network); then the per-graph mean of the node outputs and a log-softmax over the six classes. The kernel computes the
  messages and the perceptrons in four tiled regions (blocks of 10000 edges, blocks of 4000 nodes) and leaves the
  gathers, the scatter-adds, the pooling and the log-softmax to host operations, which are the reference's own. On the
  extended reals a block of rows of a matrix product is the product of that block of rows, the roundings to bf16 on the
  way into the products are the identity, and a product into a zero accumulator is the host's product: so each region's
  output array is the same function of its inputs as the matching operations of the reference, entry by entry, with the
  sums over the contracted axis in the same order. No law that needs finiteness is used: the precondition is never opened.

  The three frames: the two kernels' are the frame certificates of their four regions; the reference's is its run with
  the result dropped. The idealization rewrote nothing, so there is nothing to preserve. The value claim: the kernel's
  run ends with its result buffer at the last boundary's contents, which read back through @main are the reference's
  last stage of the arguments; the reference's run ends at that stage of its own arguments, which agree.
-/
import proofs.«155975_j53807350284451_1_alg».proof.Defs
import proofs.«155975_j53807350284451_1_alg».proof.Proof.Gen.Kernel
import proofs.«155975_j53807350284451_1_alg».proof.Proof.Gen.Kernel.Skeleton
import proofs.«155975_j53807350284451_1_alg».proof.Proof.Gen.Kernel.Launch
import proofs.«155975_j53807350284451_1_alg».proof.Proof.Gen.Kernel.Points
import proofs.«155975_j53807350284451_1_alg».proof.Proof.Gen.Kernel.Frame
import proofs.«155975_j53807350284451_1_alg».proof.Proof.Gen.KernelIdeal
import proofs.«155975_j53807350284451_1_alg».proof.Proof.Gen.KernelIdeal.Skeleton
import proofs.«155975_j53807350284451_1_alg».proof.Proof.Gen.KernelIdeal.Launch
import proofs.«155975_j53807350284451_1_alg».proof.Proof.Gen.KernelIdeal.Points
import proofs.«155975_j53807350284451_1_alg».proof.Proof.Gen.KernelIdeal.Frame
import proofs.«155975_j53807350284451_1_alg».proof.Proof.Gen.ReferenceIdeal
import proofs.«155975_j53807350284451_1_alg».proof.Proof.Gen.ReferenceIdeal.Run
import proofs.«155975_j53807350284451_1_alg».proof.Proof.Gen.ReferenceIdeal.Read
import proofs.«155975_j53807350284451_1_alg».proof.Proof.Gen.Pre_finite_inputs
import proofs.«155975_j53807350284451_1_alg».proof.Proof.KRun
import proofs.«155975_j53807350284451_1_alg».proof.Proof.KFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.KernelIdeal.Gen.W10 m ρ c (Proc.devRef .tc Cert.KernelIdeal.main_v40),
    Cert.KernelIdeal.GenRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v65_eq, e0, e1, e2, e3, e4, e5, e6, e7, e8, e9, e10, e11]
  exact (Cert.KernelIdeal.Fold.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
